-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 132
  | .vmem => 25
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1, .i32⟩
  | 58 => ⟨S_, .i32⟩
  | 59 => ⟨S1700000x1, .i32⟩
  | 60 => ⟨S1700000x1, .i1⟩
  | 61 => ⟨S1x1, .i32⟩
  | 62 => ⟨S1700000x1, .i32⟩
  | 63 => ⟨S1700000x1, .i1⟩
  | 64 => ⟨S1700000x1, .i1⟩
  | 65 => ⟨S_, .i1⟩
  | 66 => ⟨S1700000, .i1⟩
  | 67 => ⟨S1700000x128, .f32⟩
  | 68 => ⟨S1700000x128, .i1⟩
  | 69 => ⟨S_, .f32⟩
  | 70 => ⟨S1700000x128, .f32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S1x128, .f32⟩
  | 82 => ⟨S1x128, .f32⟩
  | 83 => ⟨S128, .f32⟩
  | 84 => ⟨S_, .f32⟩
  | 85 => ⟨S128, .f32⟩
  | 86 => ⟨S128, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S100000x128, .f32⟩
  | 98 => ⟨S100000x64, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1, .i32⟩
  | 108 => ⟨S_, .i32⟩
  | 109 => ⟨S1700000x1, .i32⟩
  | 110 => ⟨S1700000x1, .i1⟩
  | 111 => ⟨S1x1, .i32⟩
  | 112 => ⟨S1700000x1, .i32⟩
  | 113 => ⟨S1700000x1, .i1⟩
  | 114 => ⟨S1700000x1, .i1⟩
  | 115 => ⟨S_, .i1⟩
  | 116 => ⟨S1700000, .i1⟩
  | 117 => ⟨S1700000x64, .f32⟩
  | 118 => ⟨S1700000x64, .i1⟩
  | 119 => ⟨S_, .f32⟩
  | 120 => ⟨S1700000x64, .f32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39_0 : Ref sig .tc := ⟨.hbm, 80, rfl⟩
abbrev main_v39_1 : Ref sig .tc := ⟨.hbm, 81, rfl⟩
abbrev main_v39_2 : Ref sig .tc := ⟨.hbm, 82, rfl⟩
abbrev main_v40 : Ref sig .tc := ⟨.hbm, 83, rfl⟩
abbrev main_cst_7 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_9 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x64, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x64, .f32⟩
  | .hbm, ⟨111, _⟩ => ⟨S1700000x1, .f32⟩
  | .hbm, ⟨112, _⟩ => ⟨S1700000x64, .f32⟩
  | .hbm, ⟨113, _⟩ => ⟨S1700000x64, .f32⟩
  | .hbm, ⟨114, _⟩ => ⟨S_, .f32⟩
  | .hbm, ⟨115, _⟩ => ⟨S100000x64, .f32⟩
  | .hbm, ⟨116, _⟩ => ⟨S1700000x1, .i32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Basics.lean ====
/-
  Finiteness of an array read at the ideal instance: every entry an ordinary real number, neither infinity.
-/
import Idealize.ShloMosaic.PureOps.Ideal

noncomputable section

namespace Cert.Bridge

open Idealize.ShloMosaic

/-- Every entry of a float array, read as an extended real, is a real number. -/
def IsReal {S : Shape} (x : FVec Ideal S .f32) : Prop := ∀ i, ∃ r : ℝ, (x i : EReal) = (r : EReal)

end Cert.Bridge

end
-- ==== Proof.PreDecode.lean ====
/-
  What the precondition says, decoded: every float input holds real numbers, and every SOURCE node id of the edge
  list (row 0 of edge_index) lies in [0, 100000), the range of the node arrays it indexes.
-/
import proofs.«402435_j14594298872380_1_alg».proof.Pre_finite_inputs
import proofs.«402435_j14594298872380_1_alg».proof.Proof.Gen.Pre_finite_inputs
import proofs.«402435_j14594298872380_1_alg».proof.Proof.Basics
import Idealize.ShloMosaic.Lib.ReduceAll
import Idealize.ShloMosaic.Lib.StableHlo.Predicate

noncomputable section

namespace Cert.Bridge

open Idealize.ShloMosaic Cert.Pre_finite_inputs Cert.Pre_finite_inputs.Facts

/-- Row 0 of the edge list as a vector of 1600000 node ids: the slice and the reshape, spelt as the precondition
    (and both programs) spell them. -/
abbrev srcIds (a1 : IVec S2x1600000 32) : IVec S1600000 32 :=
  shapeCast S1600000 (extractStridedSlice S1x1600000 ![0, 0] a1 slices_S2x1600000_S1x1600000_0_0) shapeCasts_S1x1600000_S1600000

/-- A scalar has exactly one index. -/
instance subsingleton_scalar_idx : Subsingleton S_.Idx := ⟨fun a b => funext fun d => d.elim0⟩

/-- The pattern 0x7F800000 denotes +∞. -/
theorem inf_pattern_eq_top : Ideal.ofBits .f32 0x7F800000#32 = (⊤ : EReal) := by simp [Ideal.ofBits, Ideal.ieee]

/-- On the extended reals, |x| < +∞ leaves only the real numbers: at either infinity |x| = max x (-x) is +∞ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One float conjunct: if the conjunction over all entries of |x| < +∞ is true, every entry of x is real. -/
theorem isReal_of_all {S : Shape} {axes : List (Fin S.rank)} (x : FVec Ideal S .f32)
    (hb : S_.BroadcastsInDim S (![] : Fin 0 → Fin S.rank)) (hr : S.ReducesTo axes S_) (h0 : 0 < S_.numel)
    (init : IVec S_ 1) (j : S_.Idx)
    (h : Host.reduce IntOp.andi (cmpf .olt (Host.absf x) (broadcastInDim S ![] hb (constant S_ .f32 0x7F800000#32)))
      init hr h0 j = 1#1) : IsReal x := by
  intro i
  have e := Host.reduce_andi_all _ init hr h0 j h i
  have e' : Ideal.cmp .olt (max (x i) (-(x i))) (Ideal.ofBits .f32 0x7F800000#32) = 1#1 := e
  rw [inf_pattern_eq_top] at e'
  exact real_of_abs_lt_top _ e'

/-- The precondition, decoded. -/
theorem pre_decode (a0 : FVec Ideal S100000x128 .f32) (a1 : IVec S2x1600000 32) (a2 : FVec Ideal S128x128 .f32)
    (a3 a4 a5 : FVec Ideal S128 .f32) (a6 : FVec Ideal S128x64 .f32) (a7 : FVec Ideal S64 .f32)
    (h : fn (F := Ideal) a0 a1 a2 a3 a4 a5 a6 a7 = fun _ => 1#1) :
    IsReal a0 ∧ IsReal a2 ∧ IsReal a3 ∧ IsReal a4 ∧ IsReal a5 ∧ IsReal a6 ∧ IsReal a7
      ∧ ∀ j : S1600000.Idx, 0 ≤ (srcIds a1 j).toInt ∧ (srcIds a1 j).toInt < 100000 := by
  -- the claim at the scalar's one index, with the chain of conjuncts in view
  have e := congrFun h (fun d => d.elim0)
  dsimp only [fn, fn_part1, fn_part2] at e
  -- an elementwise `and` read at an index, then a conjunction of bits that is 1 has both bits 1
  have split : ∀ (p q : IVec S_ 1) (j : S_.Idx), andi p q j = 1#1 → p j = 1#1 ∧ q j = 1#1 :=
    fun p q j hpq => IntOp.andi_eq_one.1 hpq
  obtain ⟨e, h1⟩ := split _ _ _ e
  obtain ⟨e, h7⟩ := split _ _ _ e
  obtain ⟨e, h6⟩ := split _ _ _ e
  obtain ⟨e, h5⟩ := split _ _ _ e
  obtain ⟨e, h4⟩ := split _ _ _ e
  obtain ⟨e, h3⟩ := split _ _ _ e
  obtain ⟨h0, h2⟩ := split _ _ _ e
  refine ⟨isReal_of_all a0 _ _ _ _ _ h0, isReal_of_all a2 _ _ _ _ _ h2, isReal_of_all a3 _ _ _ _ _ h3,
    isReal_of_all a4 _ _ _ _ _ h4, isReal_of_all a5 _ _ _ _ _ h5, isReal_of_all a6 _ _ _ _ _ h6,
    isReal_of_all a7 _ _ _ _ _ h7, ?_⟩
  -- the id conjunct at id j: both signed comparisons against the broadcast constants hold there
  intro j
  have ej := Host.reduce_andi_all _ _ _ _ _ h1 j
  obtain ⟨hge, hlt⟩ := IntOp.andi_eq_one.1 ej
  have hge' : IntOp.cmpi .sge (srcIds a1 j) 0#32 = 1#1 := hge
  have hlt' : IntOp.cmpi .slt (srcIds a1 j) 100000#32 = 1#1 := hlt
  rw [IntOp.cmpi_sge] at hge'
  rw [IntOp.cmpi_slt] at hlt'
  have z0 : (0#32 : BitVec 32).toInt = 0 := by decide
  have z1 : (100000#32 : BitVec 32).toInt = 100000 := by decide
  rw [z0] at hge'
  rw [z1] at hlt'
  exact ⟨hge', hlt'⟩

end Cert.Bridge

end
-- ==== Proof.Walk.lean ====
/-
  Buffers that a stretch of the program does not write keep their contents across it.  The messages' sources,
  targets and weights are computed before the first pallas_call and only read afterwards; an argument is never
  written at all.  Each lemma walks one buffer back from the boundary where it is read to the boundary where it was
  written (or to the launch memory).
-/
import proofs.«402435_j14594298872380_1_alg».proof.Proof.Gen.KernelIdeal.Frame
import Idealize.ShloMosaic.Lib.Tactic
import Idealize.ShloMosaic.PureOps.Ideal

noncomputable section

namespace Cert.Bridge

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The eight argument arrays as launched, on core `c`. -/
abbrev x0 (c : Dev nD) : FVec Ideal S100000x128 .f32 := m ((c : Thread nD τ).loc main_arg0)
abbrev x1 (c : Dev nD) : IVec S2x1600000 32 := m ((c : Thread nD τ).loc main_arg1)
abbrev x2 (c : Dev nD) : FVec Ideal S128x128 .f32 := m ((c : Thread nD τ).loc main_arg2)
abbrev x3 (c : Dev nD) : FVec Ideal S128 .f32 := m ((c : Thread nD τ).loc main_arg3)
abbrev x4 (c : Dev nD) : FVec Ideal S128 .f32 := m ((c : Thread nD τ).loc main_arg4)
abbrev x5 (c : Dev nD) : FVec Ideal S128 .f32 := m ((c : Thread nD τ).loc main_arg5)
abbrev x6 (c : Dev nD) : FVec Ideal S128x64 .f32 := m ((c : Thread nD τ).loc main_arg6)
abbrev x7 (c : Dev nD) : FVec Ideal S64 .f32 := m ((c : Thread nD τ).loc main_arg7)

/-- A stretch of host operations keeps the contents of a buffer none of its operations writes: each operation's
    written buffer is a different one. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ### read by region 0 (entry contents W3) -/
theorem W3_arg0 (c : Dev nD) : W3 m ρ c (Proc.devRef .tc main_arg0) = x0 m c :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = x0 m c := rfl
theorem W3_arg2 (c : Dev nD) : W3 m ρ c (Proc.devRef .tc main_arg2) = x2 m c :=
  calc W3 m ρ c (Proc.devRef .tc main_arg2)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = x2 m c := rfl
/-- The remaining float arguments at region 0's entry are as launched as well: no operation before it writes one. -/
private theorem W3_arg3 (c : Dev nD) : W3 m ρ c (Proc.devRef .tc main_arg3) = x3 m c :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = x3 m c := rfl
private theorem W3_arg4 (c : Dev nD) : W3 m ρ c (Proc.devRef .tc main_arg4) = x4 m c :=
  calc W3 m ρ c (Proc.devRef .tc main_arg4)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = x4 m c := rfl
private theorem W3_arg5 (c : Dev nD) : W3 m ρ c (Proc.devRef .tc main_arg5) = x5 m c :=
  calc W3 m ρ c (Proc.devRef .tc main_arg5)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = x5 m c := rfl
private theorem W3_arg6 (c : Dev nD) : W3 m ρ c (Proc.devRef .tc main_arg6) = x6 m c :=
  calc W3 m ρ c (Proc.devRef .tc main_arg6)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = x6 m c := rfl
private theorem W3_arg7 (c : Dev nD) : W3 m ρ c (Proc.devRef .tc main_arg7) = x7 m c :=
  calc W3 m ρ c (Proc.devRef .tc main_arg7)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = x7 m c := rfl
/-! ### read by the first take and the first aggregation (over W4, W5) -/
theorem W4_src (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
theorem W5_dst (c : Dev nD) : W5 m ρ c (Proc.devRef .tc main_v6) = W3 m ρ c (Proc.devRef .tc main_v6) :=
  calc W5 m ρ c (Proc.devRef .tc main_v6)
    _ = W4 m ρ c (Proc.devRef .tc main_v6) := by keeps hostOps1
    _ = W3 m ρ c (Proc.devRef .tc main_v6) := W4_of_ne m ρ c main_v6 (by decide)
theorem W5_nrm (c : Dev nD) : W5 m ρ c (Proc.devRef .tc main_v29) = W3 m ρ c (Proc.devRef .tc main_v29) :=
  calc W5 m ρ c (Proc.devRef .tc main_v29)
    _ = W4 m ρ c (Proc.devRef .tc main_v29) := by keeps hostOps1
    _ = W3 m ρ c (Proc.devRef .tc main_v29) := W4_of_ne m ρ c main_v29 (by decide)
theorem W5_arg3 (c : Dev nD) : W5 m ρ c (Proc.devRef .tc main_arg3) = x3 m c :=
  calc W5 m ρ c (Proc.devRef .tc main_arg3)
    _ = W4 m ρ c (Proc.devRef .tc main_arg3) := by keeps hostOps1
    _ = W3 m ρ c (Proc.devRef .tc main_arg3) := W4_of_ne m ρ c main_arg3 (by decide)
    _ = x3 m c := W3_arg3 m ρ c
/-! ### read between regions 1 and 2 (over W7), and by region 2 (entry contents W8) -/
theorem W7_arg4 (c : Dev nD) : W7 m ρ c (Proc.devRef .tc main_arg4) = x4 m c :=
  calc W7 m ρ c (Proc.devRef .tc main_arg4)
    _ = W6 m ρ c (Proc.devRef .tc main_arg4) := W7_of_ne m ρ c main_arg4 (by decide)
    _ = W5 m ρ c (Proc.devRef .tc main_arg4) := by keeps hostOps1_1
    _ = W4 m ρ c (Proc.devRef .tc main_arg4) := by keeps hostOps1
    _ = W3 m ρ c (Proc.devRef .tc main_arg4) := W4_of_ne m ρ c main_arg4 (by decide)
    _ = x4 m c := W3_arg4 m ρ c
theorem W7_arg5 (c : Dev nD) : W7 m ρ c (Proc.devRef .tc main_arg5) = x5 m c :=
  calc W7 m ρ c (Proc.devRef .tc main_arg5)
    _ = W6 m ρ c (Proc.devRef .tc main_arg5) := W7_of_ne m ρ c main_arg5 (by decide)
    _ = W5 m ρ c (Proc.devRef .tc main_arg5) := by keeps hostOps1_1
    _ = W4 m ρ c (Proc.devRef .tc main_arg5) := by keeps hostOps1
    _ = W3 m ρ c (Proc.devRef .tc main_arg5) := W4_of_ne m ρ c main_arg5 (by decide)
    _ = x5 m c := W3_arg5 m ρ c
theorem W8_hpre (c : Dev nD) : W8 m ρ c (Proc.devRef .tc main_v39_0) = W7 m ρ c (Proc.devRef .tc main_v39_0) := by keeps hostOps2
/-! ### read by region 3 (entry contents W9) -/
theorem W9_arg6 (c : Dev nD) : W9 m ρ c (Proc.devRef .tc main_arg6) = x6 m c :=
  calc W9 m ρ c (Proc.devRef .tc main_arg6)
    _ = W8 m ρ c (Proc.devRef .tc main_arg6) := W9_of_ne m ρ c main_arg6 (by decide)
    _ = W7 m ρ c (Proc.devRef .tc main_arg6) := by keeps hostOps2
    _ = W6 m ρ c (Proc.devRef .tc main_arg6) := W7_of_ne m ρ c main_arg6 (by decide)
    _ = W5 m ρ c (Proc.devRef .tc main_arg6) := by keeps hostOps1_1
    _ = W4 m ρ c (Proc.devRef .tc main_arg6) := by keeps hostOps1
    _ = W3 m ρ c (Proc.devRef .tc main_arg6) := W4_of_ne m ρ c main_arg6 (by decide)
    _ = x6 m c := W3_arg6 m ρ c
/-! ### read by the second take and the second aggregation (over W10, W11) -/
theorem W10_src (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keeps hostOps2
    _ = W6 m ρ c (Proc.devRef .tc main_v3) := W7_of_ne m ρ c main_v3 (by decide)
    _ = W5 m ρ c (Proc.devRef .tc main_v3) := by keeps hostOps1_1
    _ = W4 m ρ c (Proc.devRef .tc main_v3) := by keeps hostOps1
    _ = W3 m ρ c (Proc.devRef .tc main_v3) := W4_of_ne m ρ c main_v3 (by decide)
theorem W11_dst (c : Dev nD) : W11 m ρ c (Proc.devRef .tc main_v6) = W3 m ρ c (Proc.devRef .tc main_v6) :=
  calc W11 m ρ c (Proc.devRef .tc main_v6)
    _ = W10 m ρ c (Proc.devRef .tc main_v6) := by keeps hostOps4
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keeps hostOps2
    _ = W6 m ρ c (Proc.devRef .tc main_v6) := W7_of_ne m ρ c main_v6 (by decide)
    _ = W5 m ρ c (Proc.devRef .tc main_v6) := by keeps hostOps1_1
    _ = W4 m ρ c (Proc.devRef .tc main_v6) := by keeps hostOps1
    _ = W3 m ρ c (Proc.devRef .tc main_v6) := W4_of_ne m ρ c main_v6 (by decide)
theorem W11_nrm (c : Dev nD) : W11 m ρ c (Proc.devRef .tc main_v29) = W3 m ρ c (Proc.devRef .tc main_v29) :=
  calc W11 m ρ c (Proc.devRef .tc main_v29)
    _ = W10 m ρ c (Proc.devRef .tc main_v29) := by keeps hostOps4
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by keeps hostOps2
    _ = W6 m ρ c (Proc.devRef .tc main_v29) := W7_of_ne m ρ c main_v29 (by decide)
    _ = W5 m ρ c (Proc.devRef .tc main_v29) := by keeps hostOps1_1
    _ = W4 m ρ c (Proc.devRef .tc main_v29) := by keeps hostOps1
    _ = W3 m ρ c (Proc.devRef .tc main_v29) := W4_of_ne m ρ c main_v29 (by decide)
theorem W11_arg7 (c : Dev nD) : W11 m ρ c (Proc.devRef .tc main_arg7) = x7 m c :=
  calc W11 m ρ c (Proc.devRef .tc main_arg7)
    _ = W10 m ρ c (Proc.devRef .tc main_arg7) := by keeps hostOps4
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by keeps hostOps2
    _ = W6 m ρ c (Proc.devRef .tc main_arg7) := W7_of_ne m ρ c main_arg7 (by decide)
    _ = W5 m ρ c (Proc.devRef .tc main_arg7) := by keeps hostOps1_1
    _ = W4 m ρ c (Proc.devRef .tc main_arg7) := by keeps hostOps1
    _ = W3 m ρ c (Proc.devRef .tc main_arg7) := W4_of_ne m ρ c main_arg7 (by decide)
    _ = x7 m c := W3_arg7 m ρ c

end Cert.Bridge

end
-- ==== Proof.Region0.lean ====
/-
  The first linear layer's pallas_call.  Grid point t multiplies rows 10000·t … 10000·t + 9999 of x by the whole
  128×128 weight matrix (tpu.matmul into a zero accumulator; the bf16 casts are the identity on extended reals) and
  writes that row block of the result: the ten blocks tile the result, which is therefore the one product x · W —
  the host's dot_general, entry by entry  Σ_k x[i,k] · W[k,j].
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The region's operand arrays as it finds them, and its result array after the last grid point. -/
abbrev r0_x (c : Dev nD) : FVec Ideal S100000x128 .f32 := V c main_arg0
abbrev r0_w (c : Dev nD) : FVec Ideal S128x128 .f32 := V c main_arg2
abbrev r0_out (c : Dev nD) : FVec Ideal S100000x128 .f32 := (dat0 (F := Ideal) V c).arrAt 2 cfg0.N

/-! ## The block product at an entry -/

/-- A whole-buffer access starts at offset zero on both axes. -/
theorem r0_hz : (![0, 0] : Fin 2 → Nat) = fun _ => 0 :=
  funext fun a => match a with | ⟨0, _⟩ => rfl | ⟨1, _⟩ => rfl

/-- The block product's operand entries: the left operand at (row of the result entry, k), the right at (k, column). -/
theorem r0_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem r0_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem r0_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem r0_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
abbrev r0_lidx (y : S10000x128.Idx) (k : Fin 128) : S10000x128.Idx := fun a => match a with
  | ⟨0, _⟩ => ⟨(y 0).val, (y 0).isLt⟩
  | ⟨1, _⟩ => ⟨k.val, k.isLt⟩
abbrev r0_ridx (y : S10000x128.Idx) (k : Fin 128) : S128x128.Idx := fun a => match a with
  | ⟨0, _⟩ => ⟨k.val, k.isLt⟩
  | ⟨1, _⟩ => ⟨(y 1).val, (y 1).isLt⟩

/-- What the body stores, entry by entry: the casts are the identity and the product accumulates into zero, so the
    entry (r, j) of the block is Σ_k x[r,k] · W[k,j]. -/
theorem r0_pay_apply (x0 : FVec Ideal S10000x128 .f32) (x1 : FVec Ideal S128x128 .f32) (y : S10000x128.Idx) :
    k0_pay1 (F := Ideal) x0 x1 y = ∑ k : Fin 128, x0 (r0_lidx y k) * x1 (r0_ridx y k) := by
  unfold k0_pay1
  refine (Ideal.matmul_constant_zero_apply dot_S10000x128_S128x128_S10000x128_1_0_0_1_n_n none _ _ y).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx y ((ValueIdx.contrEquiv1 dot_S10000x128_S128x128_S10000x128_1_0_0_1_n_n 128 rfl rfl).symm k) = r0_lidx y k := funext fun a => Fin.ext (by
    match a with
    | ⟨0, _⟩ => exact r0_lhs_0 _ _
    | ⟨1, _⟩ => exact (r0_lhs_1 _ _).trans hk)
  have er : dot_S10000x128_S128x128_S10000x128_1_0_0_1_n_n.rhsIdx y ((ValueIdx.contrEquiv1 dot_S10000x128_S128x128_S10000x128_1_0_0_1_n_n 128 rfl rfl).symm k) = r0_ridx y k := funext fun a => Fin.ext (by
    match a with
    | ⟨0, _⟩ => exact (r0_rhs_0 _ _).trans hk
    | ⟨1, _⟩ => exact r0_rhs_1 _ _)
  show x0 _ * x1 _ = _
  rw [el, er]

/-! ## The windows' blocks as rows of the arrays -/

/-- The printed index maps over the grid: the row-blocked windows are at block (t, 0), the weights at block (0, 0). -/
theorem r0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of x's block at point t is x[10000·t + r, k]. -/
theorem r0_xblk_apply (c : Dev nD) (t : Fin cfg0.N) (x : S10000x128.Idx) (k : S100000x128.Idx)
    (hk0 : (k 0).val = 10000 * t.val + (x 0).val) (hk1 : (k 1).val = (x 1).val) :
    (iblk0 (F := Ideal) V c 0 t : Vec Ideal S10000x128 .f32) x = (V c main_arg0 : S100000x128.Idx → Elt Ideal .f32) k := by
  obtain ⟨e0, e1, -, -, -, -⟩ := r0_idx_facts t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' block at every point is the whole weight matrix. -/
theorem r0_wblk_apply (c : Dev nD) (t : Fin cfg0.N) (x : S128x128.Idx) (k : S128x128.Idx)
    (hk0 : (k 0).val = (x 0).val) (hk1 : (k 1).val = (x 1).val) :
    (iblk0 (F := Ideal) V c 1 t : Vec Ideal S128x128 .f32) x = (V c main_arg2 : S128x128.Idx → Elt Ideal .f32) k := by
  obtain ⟨-, -, e0, e1, -, -⟩ := r0_idx_facts t
  unfold iblk0
  rw [View.read_apply]
  show V c main_arg2 _ = V c main_arg2 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-! ## What a point writes back, the cover, the array -/

/-- The product of the two operand arrays as the region finds them. -/
abbrev r0_G (c : Dev nD) : FVec Ideal S100000x128 .f32 :=
  Host.dotGeneral (F := Ideal) Cert.ReferenceIdeal.dot_S100000x128_S128x128_S100000x128_1_0_0_1_n_n none (r0_x V c) (r0_w V c)

/-- Point t writes back rows 10000·t … 10000·t + 9999 of the product: both are Σ_k x[10000·t + r, k] · W[k, j]. -/
theorem r0_flushed_eq (c : Dev nD) (t : Fin cfg0.N) :
    (dat0 (F := Ideal) V c).flushed 2 t = ((cfg0.win 2).blk t).view.read (Elt Ideal) (r0_G V c) := by
  show (cfg0.win 2).cut (grid0.coords t) ((dat0 (F := Ideal) V c).after 2 t) = _
  rw [after0_2]
  unfold out0_2
  rw [View.canon_unit_zero r0_hz]
  simp only [View.ld_unit_zero (S := S10000x128) r0_hz, View.ld_unit_zero (S := S128x128) r0_hz]
  funext j
  show k0_pay1 (F := Ideal) (iblk0 V c 0 t) (iblk0 V c 1 t) j = r0_G V c (((cfg0.win 2).blk t).view.emb j)
  obtain ⟨-, -, -, -, e0, e1⟩ := r0_idx_facts t
  refine (r0_pay_apply (iblk0 V c 0 t) (iblk0 V c 1 t) j).trans ?_
  refine Eq.trans ?_ (Cert.ReferenceIdeal.ReadP.val_main_v30_apply (V c main_arg0) (V c main_arg2) (((cfg0.win 2).blk t).view.emb j)).symm
  refine Finset.sum_congr rfl fun k _ => ?_
  congr 1
  · refine r0_xblk_apply V c t (r0_lidx j k) _ ?_ rfl
    show win0_2.index t (0 : Fin 2) * 10000 + 1 * (j 0).val = 10000 * t.val + (j 0).val
    rw [e0]; omega
  · refine r0_wblk_apply V c t (r0_ridx j k) _ rfl ?_
    show win0_2.index t (1 : Fin 2) * 128 + 1 * (j 1).val = (j 1).val
    rw [e1]; omega

/-- An index of the result array is in point t's block iff each coordinate is in the block's range on its axis. -/
theorem r0_mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row i of the result lies in the block of point i / 10000. -/
theorem r0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e0, e1⟩ := r0_idx_facts t
  have ht : t.val = (i 0).val / 10000 := rfl
  refine ⟨t, flush0_2 t, ?_⟩
  rw [r0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is the matrix product of the two operand arrays as the region found them. -/
theorem region0_array (c : Dev nD) :
    r0_out V c = Host.dotGeneral (F := Ideal) Cert.ReferenceIdeal.dot_S100000x128_S128x128_S100000x128_1_0_0_1_n_n none
      (r0_x V c) (r0_w V c) :=
  (dat0 (F := Ideal) V c).arrAt_eq_of_cover 2 (r0_G V c) (fun t _ => r0_flushed_eq V c t) r0_cover

end Cert.Bridge

end
-- ==== Proof.FoldA.lean ====
/-
  The kernel program up to the first aggregation's inputs.  The host operations before the first pallas_call are,
  operation for operation, the reference's: the messages' sources, targets and weights are the same terms of the
  edge list.  The first pallas_call leaves the product x · W₁, the reference's dot_general.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402435_j14594298872380_1_alg».proof.Proof.Walk
import proofs.«402435_j14594298872380_1_alg».proof.Proof.Region0

noncomputable section

namespace Cert.Bridge

open Idealize.ShloMosaic Idealize.ShloMosaic.TcCoe Idealize.SL.Sem
open Idealize.ShloMosaic.Pipeline (Dat)
open Cert.KernelIdeal Cert.KernelIdeal.Gen

open Cert.ReferenceIdeal.ReadP (val_main_v3 val_main_v6 val_main_v29 val_main_v30 val_main_v43 val_main_v46 val_main_v49 val_main_v56 val_main_v72 val_main_v73 val_main_v89)
variable (m : (ℓ : Loc nD τ sig) → Buf (Elt Ideal) ℓ) (ρ : Dev nD → PrngReg)

/-- A stretch of host operations keeps the contents of a buffer none of its operations writes: each operation's
    written buffer is a different one. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

open Idealize.ShloMosaic.StableHlo

/-! ### The first stretch (over the launch memory): the edge list's two rows, each extended by the self-loops, the
    in-degrees (a scatter-add of ones at the targets), their positivity test and their inverse square roots -/

private theorem W1_v3 (c : Dev nD) : W1 m ρ c (Proc.devRef .tc main_v3) = val_main_v3 (F := Ideal) (x1 m c) := by
  dsimp only [W1]
  after_results
  unfold Cert.ReferenceIdeal.ReadP.val_main_v3 Cert.ReferenceIdeal.ReadP.val_main_v2 Cert.ReferenceIdeal.ReadP.val_main_v1 Cert.ReferenceIdeal.ReadP.val_main_v0
  rfl

private theorem W1_v6 (c : Dev nD) : W1 m ρ c (Proc.devRef .tc main_v6) = val_main_v6 (F := Ideal) (x1 m c) := by
  dsimp only [W1]
  after_results
  unfold Cert.ReferenceIdeal.ReadP.val_main_v6 Cert.ReferenceIdeal.ReadP.val_main_v5 Cert.ReferenceIdeal.ReadP.val_main_v4 Cert.ReferenceIdeal.ReadP.val_main_v0
  rfl

private theorem W1_v12 (c : Dev nD) : W1 m ρ c (Proc.devRef .tc main_v12) = Cert.ReferenceIdeal.ReadP.val_main_v12 (F := Ideal) (x1 m c) := by
  dsimp only [W1]
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0 Cert.ReferenceIdeal.ReadP.val_main_v6 Cert.ReferenceIdeal.ReadP.val_main_v5 Cert.ReferenceIdeal.ReadP.val_main_v4 Cert.ReferenceIdeal.ReadP.val_main_v0
  rfl

private theorem W1_v13 (c : Dev nD) : W1 m ρ c (Proc.devRef .tc main_v13) = Cert.ReferenceIdeal.ReadP.val_main_v13 (F := Ideal) (x1 m c) := by
  dsimp only [W1]
  after_results
  unfold Cert.ReferenceIdeal.ReadP.val_main_v13 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0 Cert.ReferenceIdeal.ReadP.val_main_v6 Cert.ReferenceIdeal.ReadP.val_main_v5 Cert.ReferenceIdeal.ReadP.val_main_v4 Cert.ReferenceIdeal.ReadP.val_main_v0
  rfl

private theorem W1_cst_2 (c : Dev nD) : W1 m ρ c (Proc.devRef .tc main_cst_2) = Cert.ReferenceIdeal.ReadP.val_main_cst_2 (F := Ideal) := by
  dsimp only [W1]
  after_results
  unfold Cert.ReferenceIdeal.ReadP.val_main_cst_2
  rfl

/-! ### The second stretch: the inverse square-root degree where the degree is positive, zero elsewhere; the
    sources and targets pass it unwritten -/

private theorem W2_v3 (c : Dev nD) : W2 m ρ c (Proc.devRef .tc main_v3) = val_main_v3 (F := Ideal) (x1 m c) :=
  calc W2 m ρ c (Proc.devRef .tc main_v3)
    _ = W1 m ρ c (Proc.devRef .tc main_v3) := by keeps hostOps0_1
    _ = val_main_v3 (F := Ideal) (x1 m c) := W1_v3 m ρ c

private theorem W2_v6 (c : Dev nD) : W2 m ρ c (Proc.devRef .tc main_v6) = val_main_v6 (F := Ideal) (x1 m c) :=
  calc W2 m ρ c (Proc.devRef .tc main_v6)
    _ = W1 m ρ c (Proc.devRef .tc main_v6) := by keeps hostOps0_1
    _ = val_main_v6 (F := Ideal) (x1 m c) := W1_v6 m ρ c

private theorem W2_v14 (c : Dev nD) : W2 m ρ c (Proc.devRef .tc main_v14) = Cert.ReferenceIdeal.ReadP.val_main_v14 (F := Ideal) (x1 m c) := by
  have h12 := W1_v12 m ρ c
  have h13 := W1_v13 m ρ c
  have hc := W1_cst_2 m ρ c
  dsimp only [W2]
  generalize W1 m ρ c = V at h12 h13 hc ⊢
  after_results
  show select (V (Proc.devRef .tc main_v12)) (V (Proc.devRef .tc main_v13))
      (broadcastInDim S100000 ![] bcast_S_S100000 (id (V (Proc.devRef .tc main_cst_2)))) = _
  rw [h12, h13, hc]
  unfold Cert.ReferenceIdeal.ReadP.val_main_v14 Cert.ReferenceIdeal.ReadP.val_main_call0_v1 Cert.ReferenceIdeal.ReadP.val_main_call0_v0
  rfl

/-! ### The third stretch: each message's weight is the product of the inverse square-root degrees taken at its
    source and at its target (an id below zero counted from the end) -/

/-- The messages' source ids are the reference's. -/
theorem W3_src (c : Dev nD) : W3 m ρ c (Proc.devRef .tc main_v3) = val_main_v3 (F := Ideal) (x1 m c) :=
  calc W3 m ρ c (Proc.devRef .tc main_v3)
    _ = W2 m ρ c (Proc.devRef .tc main_v3) := by keeps hostOps0_2
    _ = val_main_v3 (F := Ideal) (x1 m c) := W2_v3 m ρ c

/-- The messages' target ids are the reference's. -/
theorem W3_dst (c : Dev nD) : W3 m ρ c (Proc.devRef .tc main_v6) = val_main_v6 (F := Ideal) (x1 m c) :=
  calc W3 m ρ c (Proc.devRef .tc main_v6)
    _ = W2 m ρ c (Proc.devRef .tc main_v6) := by keeps hostOps0_2
    _ = val_main_v6 (F := Ideal) (x1 m c) := W2_v6 m ρ c

/-- The messages' weights are the reference's. -/
theorem W3_nrm (c : Dev nD) : W3 m ρ c (Proc.devRef .tc main_v29) = val_main_v29 (F := Ideal) (x1 m c) := by
  have h3 := W2_v3 m ρ c
  have h6 := W2_v6 m ρ c
  have h14 := W2_v14 m ρ c
  dsimp only [W3]
  generalize W2 m ρ c = V at h3 h6 h14 ⊢
  after_results_simp
  rw [h3, h6, h14]
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_c_4 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_3 Cert.ReferenceIdeal.ReadP.val_main_v16 Cert.ReferenceIdeal.ReadP.val_main_v15 Cert.ReferenceIdeal.ReadP.val_main_c
  rfl

/-! ### The first pallas_call: its result array is the matrix product of its two operand arrays, which are the
    arguments as launched; that product is the reference's dot_general -/

/-- After the first pallas_call its result array is the reference's first product. -/
theorem W4_lin (c : Dev nD) : W4 m ρ c (Proc.devRef .tc main_v30) = val_main_v30 (F := Ideal) (x0 m c) (x2 m c) := by
  have h := (W4_arr m ρ c 2).trans (region0_array (V3 m ρ) c)
  dsimp only [r0_x, r0_w, V3] at h
  rw [W3_arg0 m ρ c, W3_arg2 m ρ c] at h
  exact h

end Cert.Bridge

end
-- ==== Proof.TakeGather.lean ====
/-
  jnp.take at its default mode gathers at the (numpy-wrapped, clamped) index and then REPLACES by a NaN every row
  whose wrapped index falls outside [0, 99999]; plain indexing `h[row]` only gathers.  Where every index lies in
  [0, 100000) nothing is replaced: the mask is all ones and the two are one array.
-/
import proofs.«402435_j14594298872380_1_alg».proof.KernelIdeal
import proofs.«402435_j14594298872380_1_alg».proof.Proof.Gen.KernelIdeal
import Idealize.ShloMosaic.Lib.StableHlo.Predicate
import Idealize.ShloMosaic.Lib.ValueIdx
import Idealize.ShloMosaic.Lib.Pipeline.Value

noncomputable section

namespace Cert.Bridge

open Idealize.ShloMosaic Cert.KernelIdeal Cert.KernelIdeal.Facts₀ Cert.KernelIdeal.Facts

/-- Node ids wrapped the numpy way: a negative id counts from the end. -/
abbrev wrapIds (row : IVec S1700000 32) : IVec S1700000 32 :=
  select (cmpi .slt row (broadcastInDim S1700000 ![] bcast_S_S1700000 (constantI S_ 32 0#32)))
    (addi row (broadcastInDim S1700000 ![] bcast_S_S1700000 (constantI S_ 32 100000#32))) row

/-- The wrapped ids as the one-column index array a gather takes. -/
abbrev idCol (row : IVec S1700000 32) : IVec S1700000x1 32 :=
  broadcastInDim S1700000x1 ![0] bcast_S1700000_S1700000x1_0 (wrapIds row)

/-- jnp.take's in-bounds test of an index column: 0 ≤ id ≤ 99999, per row. -/
abbrev inBounds (v : IVec S1700000x1 32) : IVec S1700000 1 :=
  Host.reduce IntOp.andi
    (andi (cmpi .sge v (broadcastInDim S1700000x1 ![] bcast_S_S1700000x1 (constantI S_ 32 0#32)))
      (cmpi .sle v (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- jnp.take of the rows of a 100000×128 table, as the kernel's host code computes it. -/
def take128 (x : FVec Ideal S100000x128 .f32) (row : IVec S1700000 32) : FVec Ideal S1700000x128 .f32 :=
  select (broadcastInDim S1700000x128 ![0] bcast_S1700000_S1700000x128_0 (inBounds (idCol row)))
    (Host.gather gather_S100000x128_S1700000x1_S1700000x128_1_0_n_n_0_1_1128 x (idCol row))
    (broadcastInDim S1700000x128 ![] bcast_S_S1700000x128 (constant S_ .f32 0x7FC00000#32))

/-- The same of a 100000×64 table. -/
def take64 (x : FVec Ideal S100000x64 .f32) (row : IVec S1700000 32) : FVec Ideal S1700000x64 .f32 :=
  select (broadcastInDim S1700000x64 ![0] bcast_S1700000_S1700000x64_0 (inBounds (idCol row)))
    (Host.gather gather_S100000x64_S1700000x1_S1700000x64_1_0_n_n_0_1_164 x (idCol row))
    (broadcastInDim S1700000x64 ![] bcast_S_S1700000x64 (constant S_ .f32 0x7FC00000#32))

/-- A fold by `and` from 1 over words that are all 1 is 1. -/
private theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- A non-negative id is not wrapped. -/
private theorem wrap_elem (v : BitVec 32) (h0 : 0 ≤ v.toInt) :
    Scalar.select (IntOp.cmpi .slt v 0#32) (IntOp.addi v 100000#32) v = v := by
  have z : (0#32 : BitVec 32).toInt = 0 := rfl
  have h : v.slt 0#32 = false := by
    simp only [BitVec.slt, z, decide_eq_false_iff_not, not_lt]; exact h0
  show (if BitVec.ofBool (v.slt 0#32) = 1 then IntOp.addi v 100000#32 else v) = v
  rw [h]; rfl

/-- An id in [0, 100000) passes both signed tests. -/
private theorem inBounds_elem (v : BitVec 32) (h0 : 0 ≤ v.toInt) (h1 : v.toInt < 100000) :
    IntOp.andi (IntOp.cmpi .sge v 0#32) (IntOp.cmpi .sle v 99999#32) = 1#1 := by
  have z : (0#32 : BitVec 32).toInt = 0 := rfl
  have t : (99999#32 : BitVec 32).toInt = 99999 := rfl
  have a : (0#32).sle v = true := by
    simp only [BitVec.sle, z, decide_eq_true_eq]; exact h0
  have b : v.sle 99999#32 = true := by
    simp only [BitVec.sle, t, decide_eq_true_eq]; omega
  show IntOp.andi (BitVec.ofBool ((0#32).sle v)) (BitVec.ofBool (v.sle 99999#32)) = 1#1
  rw [a, b]; rfl

private theorem wrapIds_apply (row : IVec S1700000 32) (k : S1700000.Idx) (h0 : 0 ≤ (row k).toInt) :
    wrapIds row k = row k := wrap_elem (row k) h0

/-- The in-bounds mask of the wrapped ids is 1 at every row. -/
private theorem inBounds_idCol (row : IVec S1700000 32)
    (hrow : ∀ k, 0 ≤ (row k).toInt ∧ (row k).toInt < 100000) (k : S1700000.Idx) :
    inBounds (idCol row) k = 1#1 := by
  unfold inBounds
  rw [Host.reduce_eq_fold]
  refine fold_andi_one _ _ (fun i => ?_)
  obtain ⟨k', hk'⟩ : ∃ k', idCol row i = row k' := ⟨_, wrapIds_apply row _ (hrow _).1⟩
  show IntOp.andi (IntOp.cmpi .sge (idCol row i) 0#32) (IntOp.cmpi .sle (idCol row i) 99999#32) = 1#1
  rw [hk']; exact inBounds_elem _ (hrow k').1 (hrow k').2

/-- A select under a mask that is 1 everywhere is its first branch. -/
private theorem select_of_all_one {s : Shape} {α : Type} (c : IVec s 1) (a b : s.Idx → α) (hc : ∀ i, c i = 1#1) :
    select c a b = a := by
  funext i
  show (if c i = 1 then a i else b i) = a i
  rw [hc i]; rfl

/-- With every id in range the in-bounds mask is all ones and take is the plain gather. -/
theorem take128_eq (x : FVec Ideal S100000x128 .f32) (row : IVec S1700000 32)
    (hrow : ∀ k, 0 ≤ (row k).toInt ∧ (row k).toInt < 100000) :
    take128 x row = Host.gather gather_S100000x128_S1700000x1_S1700000x128_1_0_n_n_0_1_1128 x (idCol row) := by
  unfold take128
  exact select_of_all_one _ _ _ (fun i => inBounds_idCol row hrow _)

theorem take64_eq (x : FVec Ideal S100000x64 .f32) (row : IVec S1700000 32)
    (hrow : ∀ k, 0 ≤ (row k).toInt ∧ (row k).toInt < 100000) :
    take64 x row = Host.gather gather_S100000x64_S1700000x1_S1700000x64_1_0_n_n_0_1_164 x (idCol row) := by
  unfold take64
  exact select_of_all_one _ _ _ (fun i => inBounds_idCol row hrow _)

/-- The source ids of all 1700000 messages: the 1600000 edges' sources, then one self-loop per node. -/
abbrev allSrc (e : IVec S1600000 32) : IVec S1700000 32 :=
  concatenate S1700000 0 [⟨S1600000, e⟩, ⟨S100000, iotaInDim S100000 32 0⟩] concatenates_S1600000_S100000_S1700000_d0

/-- Every element of a concatenation is an element of one of its pieces. -/
private theorem concatenate_mem {α : Type} {t : Shape} (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

/-- A small natural number as a 32-bit word reads back, signed, as itself. -/
private theorem toInt_ofNat_small (n : Nat) (hn : n < 100000) :
    0 ≤ (BitVec.ofNat 32 n).toInt ∧ (BitVec.ofNat 32 n).toInt < 100000 := by
  rw [BitVec.toInt_eq_toNat_cond, BitVec.toNat_ofNat]
  split <;> omega

/-- If the edges' source ids are in range, so are all the messages' (a self-loop's id is its node). -/
theorem allSrc_in_range (e : IVec S1600000 32) (he : ∀ j, 0 ≤ (e j).toInt ∧ (e j).toInt < 100000) :
    ∀ k, 0 ≤ (allSrc e k).toInt ∧ (allSrc e k).toInt < 100000 := by
  intro k
  obtain ⟨p, hp, i, hi⟩ := concatenate_mem (0 : Fin S1700000.rank) [⟨S1600000, e⟩, ⟨S100000, iotaInDim S100000 32 0⟩]
    concatenates_S1600000_S100000_S1700000_d0 k
  have hi' : allSrc e k = p.2 i := hi
  rw [hi']
  simp only [List.mem_cons, List.mem_singleton, List.not_mem_nil, or_false] at hp
  rcases hp with rfl | rfl
  · exact he i
  · have hlt : (i 0).val < 100000 := (i 0).isLt
    have hio : iotaInDim S100000 32 0 i = BitVec.ofNat 32 (i 0).val := rfl
    show 0 ≤ (iotaInDim S100000 32 0 i).toInt ∧ (iotaInDim S100000 32 0 i).toInt < 100000
    rw [hio]
    exact toInt_ofNat_small _ hlt

end Cert.Bridge

end
-- ==== Proof.Region1.lean ====
/-
  The batch-norm statistics pallas_call.  Grid point t adds the bias row to rows 10000·t … 10000·t + 9999 of the
  aggregated features and writes them back (output 2), and adds the block's column sums, and the column sums of its
  squares, onto two 1×128 accumulators (outputs 3 and 4) that point 0 first zeroes and that every later point finds
  as the point before left them.  After the ten points the accumulators hold the sums over all 100000 rows.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Idealize.ShloMosaic Idealize.ShloMosaic.TcCoe Idealize.SL.Sem
open Idealize.ShloMosaic.Pipeline (Dat)
open Cert.KernelIdeal Cert.KernelIdeal.Gen

open ValueIdx
variable (V : (c : Dev nD) → (b : Ref sig .tc) → Buf (Elt Ideal) ((c : Thread nD τ).loc b))

/-- The region's operand arrays as it finds them: the aggregate and the bias row. -/
abbrev r1_agg (c : Dev nD) : FVec Ideal S100000x128 .f32 := V c main_v37
abbrev r1_bias (c : Dev nD) : FVec Ideal S1x128 .f32 := V c main_v38
/-- Its three result arrays after the last grid point. -/
abbrev r1_hpre (c : Dev nD) : FVec Ideal S100000x128 .f32 := (dat1 (F := Ideal) V c).arrAt 2 cfg1.N
abbrev r1_sum (c : Dev nD) : FVec Ideal S1x128 .f32 := (dat1 (F := Ideal) V c).arrAt 3 cfg1.N
abbrev r1_sumsq (c : Dev nD) : FVec Ideal S1x128 .f32 := (dat1 (F := Ideal) V c).arrAt 4 cfg1.N

/-- The biased features: the aggregate plus the bias row under every row. -/
abbrev biased (c : Dev nD) : FVec Ideal S100000x128 .f32 :=
  fun i => r1_agg V c i + r1_bias V c (ix2 (0 : Fin 1) (i 1))

namespace Region1

/-- The zero offsets of a whole-buffer access, as a constant function. -/
theorem hz2 : (![0, 0] : Fin 2 → Nat) = fun _ => 0 := funext fun a => by fin_cases a <;> rfl

/-! What one run of the body leaves in each output's buffer, in each of its two cases, as a term of the blocks it
    reads: the block plus the broadcast bias row (output 2), and each accumulator plus the column sums of that, or of
    its squares (outputs 3 and 4). In the first case the accumulators are first set to zero and read back; in the
    other they are as the point before left them. -/

section Pieces
variable {F : FTy → Type} [FloatOps F]

theorem out_B_2 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : ¬cond1_0 i)
    (x0 : Vec F S10000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, View.ld_unit_zero (S := S10000x128) hz2,
    View.ld_unit_zero (S := S1x128) hz2]

theorem out_B_3 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : ¬cond1_0 i)
    (x0 : Vec F S10000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, View.ld_unit_zero (S := S10000x128) hz2,
    View.ld_unit_zero (S := S1x128) hz2]

theorem out_B_4 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : ¬cond1_0 i)
    (x0 : Vec F S10000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h5.read_unread, View.ld_unit_zero (S := S10000x128) hz2,
    View.ld_unit_zero (S := S1x128) hz2]

theorem out_A_2 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : cond1_0 i)
    (x0 : Vec F S10000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz2]
  simp only [View.readAt_eq_ld, h1.read_unread, h2.read_unread, View.ld_unit_zero (S := S10000x128) hz2,
    View.ld_unit_zero (S := S1x128) hz2]

theorem out_A_3 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : cond1_0 i)
    (x0 : Vec F S10000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz2]
  simp only [View.readAt_eq_ld, h1.read_unread, h2.read_unread, View.ld_unit_zero (S := S10000x128) hz2,
    View.ld_unit_zero (S := S1x128) hz2, View.readCov_unit_zero (S := S1x128) _ hz2]

theorem out_A_4 (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole) (a4 : Memref sig .tc .vmem S1x128 .f32) (h4 : a4.IsWhole)
    (a5 : Memref sig .tc .vmem S1x128 .f32) (h5 : a5.IsWhole) (hc : cond1_0 i)
    (x0 : Vec F S10000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz2]
  simp only [View.readAt_eq_ld, h1.read_unread, h2.read_unread, View.ld_unit_zero (S := S10000x128) hz2,
    View.ld_unit_zero (S := S1x128) hz2, View.readCov_unit_zero (S := S1x128) _ hz2]

end Pieces

/-! The body's arithmetic read at an index, over the extended reals. -/

theorem pay3_apply (x0 : Vec Ideal S10000x128 .f32) (x1 : Vec Ideal S1x128 .f32) (r : Fin 10000) (l : Fin 128) :
    k1_pay3 x0 x1 (ix2 r l) = x0 (ix2 r l) + x1 (ix2 (0 : Fin 1) l) := by
  unfold k1_pay3
  refine (addf_apply _ _ _).trans ?_
  refine congrArg₂ (· + ·) (congrFun (shapeCast_self x0 _) _) ?_
  refine (broadcastTo_1b_ab_apply _ _ r l).trans ?_
  exact congrFun (shapeCast_self x1 _) _

theorem lift_ix (l : Fin 128) (k : Fin 10000) :
    reduces_S10000x128_S128.lift (ix1 l) k = ix2 k l := by
  funext a
  match a with
  | ⟨0, _⟩ => rfl
  | ⟨1, _⟩ => rfl

theorem pay4_apply (x0 : Vec Ideal S10000x128 .f32) (x1 : Vec Ideal S1x128 .f32) (acc : Vec Ideal S1x128 .f32)
    (u : Fin 1) (l : Fin 128) :
    k1_pay4 x0 x1 acc (ix2 u l) = acc (ix2 u l) + ∑ k : Fin 10000, k1_pay3 x0 x1 (ix2 k l) := by
  unfold k1_pay4
  refine (addf_apply _ _ _).trans ?_
  refine congrArg₂ (· + ·) (congrFun (shapeCast_self acc _) _) ?_
  refine (shapeCast_a_1a_apply _ _ u l).trans ?_
  refine (Ideal.multiReduction_add_single (k1_pay3 x0 x1) 0x00000000#32 reduces_S10000x128_S128 (.inl rfl) rfl (ix1 l)).trans ?_
  exact Finset.sum_congr rfl fun k _ => congrArg (k1_pay3 x0 x1) (lift_ix l k)

theorem pay5_apply (x0 : Vec Ideal S10000x128 .f32) (x1 : Vec Ideal S1x128 .f32) (acc : Vec Ideal S1x128 .f32)
    (u : Fin 1) (l : Fin 128) :
    k1_pay5 x0 x1 acc (ix2 u l)
      = acc (ix2 u l) + ∑ k : Fin 10000, k1_pay3 x0 x1 (ix2 k l) * k1_pay3 x0 x1 (ix2 k l) := by
  unfold k1_pay5
  refine (addf_apply _ _ _).trans ?_
  refine congrArg₂ (· + ·) (congrFun (shapeCast_self acc _) _) ?_
  refine (shapeCast_a_1a_apply _ _ u l).trans ?_
  refine (Ideal.multiReduction_add_single (mulf (k1_pay3 x0 x1) (k1_pay3 x0 x1)) 0x00000000#32 reduces_S10000x128_S128 (.inl rfl) rfl (ix1 l)).trans ?_
  refine Finset.sum_congr rfl fun k _ => ?_
  refine (mulf_apply _ _ _).trans ?_
  exact congrArg (fun i => k1_pay3 x0 x1 i * k1_pay3 x0 x1 i) (lift_ix l k)

theorem pay1_apply (i : S1x128.Idx) : k1_pay1 (F := Ideal) i = 0 := by
  unfold k1_pay1
  exact Ideal.ofBits_zero_f32

theorem pay2_apply (i : S1x128.Idx) : k1_pay2 (F := Ideal) i = 0 := by
  unfold k1_pay2
  exact Ideal.ofBits_zero_f32

/-! The region's input blocks at a grid point, and where they sit in the operand arrays. -/

/-- The aggregate's block and the bias row's block at point `t`. -/
abbrev xblk (c : Dev nD) (t : Fin cfg1.N) : Vec Ideal S10000x128 .f32 := iblk1 V c 0 t
abbrev bblk (c : Dev nD) (t : Fin cfg1.N) : Vec Ideal S1x128 .f32 := iblk1 V c 1 t

/-- The block index maps over the grid: the row-blocked windows sit at block (t, 0), the whole-array ones at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `y` of the aggregate's block at point `t` is row `10000 t + y` of the aggregate. -/
theorem xblk_apply (c : Dev nD) (t : Fin cfg1.N) (y : Fin 10000) (l : Fin 128) (hr : 10000 * t.val + y.val < 100000) :
    xblk V c t (ix2 y l) = r1_agg V c (ix2 ⟨10000 * t.val + y.val, hr⟩ l) := by
  obtain ⟨e0, e1, -⟩ := idx_facts t
  unfold xblk iblk1
  rw [View.read_apply]
  show V c main_v37 _ = V c main_v37 _
  congr 1
  funext a
  apply Fin.ext
  match a with
  | ⟨0, _⟩ => show win1_0.index t 0 * 10000 + 1 * y.val = 10000 * t.val + y.val; rw [e0]; omega
  | ⟨1, _⟩ => show win1_0.index t 1 * 128 + 1 * l.val = l.val; rw [e1]; omega

/-- The bias row's block is the bias row, at every point. -/
theorem bblk_apply (c : Dev nD) (t : Fin cfg1.N) (u : Fin 1) (l : Fin 128) :
    bblk V c t (ix2 u l) = r1_bias V c (ix2 (0 : Fin 1) l) := by
  obtain ⟨-, -, e2, e3, -⟩ := idx_facts t
  unfold bblk iblk1
  rw [View.read_apply]
  show V c main_v38 _ = V c main_v38 _
  congr 1
  funext a
  apply Fin.ext
  match a with
  | ⟨0, _⟩ => show win1_1.index t 0 * 1 + 1 * u.val = 0; rw [e2]; omega
  | ⟨1, _⟩ => show win1_1.index t 1 * 128 + 1 * l.val = l.val; rw [e3]; omega

/-- So the block plus the broadcast bias row, at row `k` of point `t`, is the biased feature at row `10000 t + k`. -/
theorem biased_blk (c : Dev nD) (t : Fin cfg1.N) (k : Fin 10000) (l : Fin 128) (hr : 10000 * t.val + k.val < 100000) :
    k1_pay3 (xblk V c t) (bblk V c t) (ix2 k l) = biased V c (ix2 ⟨10000 * t.val + k.val, hr⟩ l) := by
  rw [pay3_apply, xblk_apply V c t k l hr, bblk_apply V c t 0 l]

/-! Column sums with the rows counted by natural numbers: a block's sum is a stretch of the array's. -/

/-- A function `g` of the biased feature at row `r`, column `l` (zero past the last row). -/
def rowv (g : EReal → EReal) (c : Dev nD) (l : Fin 128) (r : ℕ) : EReal :=
  if h : r < 100000 then g (biased V c (ix2 ⟨r, h⟩ l)) else 0

/-- The column sum over the block of point `t` is the sum over rows `10000 t … 10000 t + 9999`. -/
theorem blk_sum (g : EReal → EReal) (c : Dev nD) (t : Fin cfg1.N) (l : Fin 128) :
    ∑ k : Fin 10000, g (k1_pay3 (xblk V c t) (bblk V c t) (ix2 k l))
      = ∑ y ∈ Finset.range 10000, rowv V g c l (10000 * t.val + y) := by
  have ht : t.val < 10 := lt_of_lt_of_eq t.isLt (show cfg1.N = 10 from N_1)
  rw [← Fin.sum_univ_eq_sum_range (fun y => rowv V g c l (10000 * t.val + y)) 10000]
  refine Finset.sum_congr rfl fun k _ => ?_
  have hr : 10000 * t.val + k.val < 100000 := by have := k.isLt; omega
  unfold rowv
  rw [dif_pos hr, biased_blk V c t k l hr]

/-! The accumulators after each grid point: the column sums over the rows seen so far. -/

theorem acc_inv (c : Dev nD) : ∀ (n : ℕ) (hn : n < cfg1.N) (l : Fin 128),
    (outsAt1 V c n hn).2.1 (ix2 (0 : Fin 1) l) = ∑ r ∈ Finset.range (10000 * (n + 1)), rowv V (fun x => x) c l r
    ∧ (outsAt1 V c n hn).2.2 (ix2 (0 : Fin 1) l) = ∑ r ∈ Finset.range (10000 * (n + 1)), rowv V (fun x => x * x) c l r
  | 0, hn, l => by
    rw [outsAt1_A V c ⟨0, hn⟩ rfl]
    dsimp only
    constructor
    · refine (congrFun (out_A_3 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
        ((hcond1_0 ⟨0, hn⟩).mpr rfl) (xblk V c ⟨0, hn⟩) (bblk V c ⟨0, hn⟩)) (ix2 (0 : Fin 1) l)).trans ?_
      rw [pay4_apply, pay1_apply, zero_add]
      refine (blk_sum V (fun x => x) c ⟨0, hn⟩ l).trans ?_
      simp only [Nat.mul_zero, Nat.zero_add, Nat.mul_one]
    · refine (congrFun (out_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
        ((hcond1_0 ⟨0, hn⟩).mpr rfl) (xblk V c ⟨0, hn⟩) (bblk V c ⟨0, hn⟩)) (ix2 (0 : Fin 1) l)).trans ?_
      rw [pay5_apply, pay2_apply, zero_add]
      refine (blk_sum V (fun x => x * x) c ⟨0, hn⟩ l).trans ?_
      simp only [Nat.mul_zero, Nat.zero_add, Nat.mul_one]
  | n + 1, hn, l => by
    have hlt : n + 1 < 10 := lt_of_lt_of_eq hn (show cfg1.N = 10 from N_1)
    have hB : ¬(⟨n + 1, hn⟩ : Fin cfg1.N).val % 10 = 0 := by dsimp only; omega
    obtain ⟨ih3, ih4⟩ := acc_inv c n (Nat.lt_of_succ_lt hn) l
    have hsplit : 10000 * (n + 1 + 1) = 10000 * (n + 1) + 10000 := by ring
    rw [outsAt1_B V c ⟨n + 1, hn⟩ hB]
    dsimp only
    constructor
    · refine (congrFun (out_B_3 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => hB ((hcond1_0 ⟨n + 1, hn⟩).mp h)) (xblk V c ⟨n + 1, hn⟩) (bblk V c ⟨n + 1, hn⟩)
        (outsAt1 V c n (Nat.lt_of_succ_lt hn)).2.1 (outsAt1 V c n (Nat.lt_of_succ_lt hn)).2.2) (ix2 (0 : Fin 1) l)).trans ?_
      rw [pay4_apply, ih3, hsplit, Finset.sum_range_add]
      exact congrArg (_ + ·) (blk_sum V (fun x => x) c ⟨n + 1, hn⟩ l)
    · refine (congrFun (out_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => hB ((hcond1_0 ⟨n + 1, hn⟩).mp h)) (xblk V c ⟨n + 1, hn⟩) (bblk V c ⟨n + 1, hn⟩)
        (outsAt1 V c n (Nat.lt_of_succ_lt hn)).2.1 (outsAt1 V c n (Nat.lt_of_succ_lt hn)).2.2) (ix2 (0 : Fin 1) l)).trans ?_
      rw [pay5_apply, ih4, hsplit, Finset.sum_range_add]
      exact congrArg (_ + ·) (blk_sum V (fun x => x * x) c ⟨n + 1, hn⟩ l)

/-! Output 2: every point writes its block of the biased features back, and the ten blocks tile the array. -/

/-- What the body leaves in output 2's buffer at point `t`, in either case: the block plus the broadcast bias row. -/
theorem out2_eq (c : Dev nD) (t : Fin cfg1.N) :
    (outsAt1 V c t.val t.isLt).1 = k1_pay3 (xblk V c t) (bblk V c t) := by
  by_cases h0 : t.val % 10 = 0
  · rw [outsAt1_A V c t h0]
    dsimp only
    exact out_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (bblk V c t)
  · rw [outsAt1_B V c t h0]
    dsimp only
    exact out_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (bblk V c t) _ _

/-- That block at an index `y`, against the biased features at the array index `i` it sits at. -/
theorem hpre_at (c : Dev nD) (t : Fin cfg1.N) (y : S10000x128.Idx) (i : S100000x128.Idx)
    (h0 : (i 0).val = 10000 * t.val + (y 0).val) (h1 : (i 1).val = (y 1).val) :
    k1_pay3 (xblk V c t) (bblk V c t) y = biased V c i := by
  obtain ⟨y0, y1, rfl⟩ : ∃ (y0 : Fin 10000) (y1 : Fin 128), y = ix2 y0 y1 := ⟨y 0, y 1, eq_ix2 y⟩
  have h0' : (i 0).val = 10000 * t.val + y0.val := h0
  have h1' : (i 1).val = y1.val := h1
  have hr : 10000 * t.val + y0.val < 100000 := by have := idx2_lt0 i; omega
  rw [biased_blk V c t y0 y1 hr]
  congr 1
  funext a
  apply Fin.ext
  match a with
  | ⟨0, _⟩ => exact h0'.symm
  | ⟨1, _⟩ => exact h1'.symm

theorem flushed2_eq (c : Dev nD) (t : Fin cfg1.N) :
    (dat1 V c).flushed 2 t = ((cfg1.win 2).blk t).view.read (Elt Ideal) (biased V c) := by
  show (cfg1.win 2).cut (grid1.coords t) ((dat1 V c).after 2 t) = _
  rw [after1_2, out2_eq V c t]
  obtain ⟨-, -, -, -, e4, e5⟩ := idx_facts t
  funext j
  rw [View.read_apply]
  refine hpre_at V c t j _ ?_ ?_
  · show win1_2.index t 0 * 10000 + 1 * (j 0).val = 10000 * t.val + (j 0).val
    rw [e4]; omega
  · show win1_2.index t 1 * 128 + 1 * (j 1).val = (j 1).val
    rw [e5]; omega

/-- An index of the array is in point `t`'s block iff each coordinate is in the block's range on its axis. -/
theorem mem_blk2 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v39_0).slice (win1_2.rect t)).set ↔ _
  rw [View.set_slice_whole, Rect.mem_set_unit]
  exact Iff.rfl

/-- Row `r` lies in the block of point `r / 10000`. -/
theorem cover2 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  refine ⟨⟨(i 0).val / 10000, lt_of_lt_of_eq (by omega) (show (10 : ℕ) = cfg1.N from N_1.symm)⟩, flush1_2 _, ?_⟩
  obtain ⟨-, -, -, -, e4, e5⟩ := idx_facts ⟨(i 0).val / 10000, lt_of_lt_of_eq (by omega) (show (10 : ℕ) = cfg1.N from N_1.symm)⟩
  rw [mem_blk2]
  intro a
  match a with
  | ⟨0, _⟩ =>
    show win1_2.index _ 0 * 10000 ≤ (i 0).val ∧ (i 0).val < win1_2.index _ 0 * 10000 + 10000
    rw [e4]; dsimp only; omega
  | ⟨1, _⟩ =>
    show win1_2.index _ 1 * 128 ≤ (i 1).val ∧ (i 1).val < win1_2.index _ 1 * 128 + 128
    rw [e5]; omega

/-! Outputs 3 and 4: the last point alone writes back, and what it writes is the accumulator after all ten points. -/

/-- The column sums of `g` of the biased features over all rows, as a 1×128 array. -/
abbrev colsum (g : EReal → EReal) (c : Dev nD) : FVec Ideal S1x128 .f32 :=
  fun i => ∑ r ∈ Finset.range 100000, rowv V g c (i 1) r

theorem t9_lt : 9 < cfg1.N := lt_of_lt_of_eq (by decide) (show (10 : ℕ) = cfg1.N from N_1.symm)

theorem acc3_last (c : Dev nD) : (outsAt1 V c 9 t9_lt).2.1 = colsum V (fun x => x) c := by
  funext i
  obtain ⟨u, l, rfl⟩ : ∃ (u : Fin 1) (l : Fin 128), i = ix2 u l := ⟨i 0, i 1, eq_ix2 i⟩
  obtain rfl : u = 0 := Subsingleton.elim _ _
  exact (acc_inv V c 9 t9_lt l).1

theorem acc4_last (c : Dev nD) : (outsAt1 V c 9 t9_lt).2.2 = colsum V (fun x => x * x) c := by
  funext i
  obtain ⟨u, l, rfl⟩ : ∃ (u : Fin 1) (l : Fin 128), i = ix2 u l := ⟨i 0, i 1, eq_ix2 i⟩
  obtain rfl : u = 0 := Subsingleton.elim _ _
  exact (acc_inv V c 9 t9_lt l).2

theorem flushed3_eq (c : Dev nD) (t : Fin cfg1.N) (hf : (cfg1.win 3).flush t = true) :
    (dat1 V c).flushed 3 t = ((cfg1.win 3).blk t).view.read (Elt Ideal) (colsum V (fun x => x) c) := by
  have hN : cfg1.N = 10 := N_1
  have h9 : t.val = 9 := by have := (flush1_3 t).mp hf; have := t.isLt; omega
  obtain rfl : t = ⟨9, t9_lt⟩ := Fin.ext h9
  show (cfg1.win 3).cut (grid1.coords ⟨9, t9_lt⟩) ((dat1 V c).after 3 ⟨9, t9_lt⟩) = _
  rw [after1_3, acc3_last V c]
  have hz' : (fun a => win1_3.index ⟨9, t9_lt⟩ a * main_v39_1.ty.shape.size a) = fun _ => 0 :=
    funext fun a => by fin_cases a <;> decide +kernel
  exact (Memref.read_access_unit_zero (Elt Ideal) main_v39_1 hz' (fun a => by rw [congrFun hz' a]; simp) (colsum V (fun x => x) c)).symm

theorem flushed4_eq (c : Dev nD) (t : Fin cfg1.N) (hf : (cfg1.win 4).flush t = true) :
    (dat1 V c).flushed 4 t = ((cfg1.win 4).blk t).view.read (Elt Ideal) (colsum V (fun x => x * x) c) := by
  have hN : cfg1.N = 10 := N_1
  have h9 : t.val = 9 := by have := (flush1_4 t).mp hf; have := t.isLt; omega
  obtain rfl : t = ⟨9, t9_lt⟩ := Fin.ext h9
  show (cfg1.win 4).cut (grid1.coords ⟨9, t9_lt⟩) ((dat1 V c).after 4 ⟨9, t9_lt⟩) = _
  rw [after1_4, acc4_last V c]
  have hz' : (fun a => win1_4.index ⟨9, t9_lt⟩ a * main_v39_2.ty.shape.size a) = fun _ => 0 :=
    funext fun a => by fin_cases a <;> decide +kernel
  exact (Memref.read_access_unit_zero (Elt Ideal) main_v39_2 hz' (fun a => by rw [congrFun hz' a]; simp) (colsum V (fun x => x * x) c)).symm

/-- The last point's block of a 1×128 output is the whole array. -/
theorem cover3 (i : S1x128.Idx) :
    ∃ t : Fin cfg1.N, (cfg1.win 3).flush t = true ∧ i ∈ ((cfg1.win 3).blk t).view.set := by
  refine ⟨⟨9, t9_lt⟩, (flush1_3 _).mpr rfl, ?_⟩
  show i ∈ ((View.whole main_v39_1).slice (win1_3.rect ⟨9, t9_lt⟩)).set
  rw [View.set_slice_whole, Rect.mem_set_unit]
  intro a
  have h0 : (i 0 : Nat) < 1 := idx2_lt0 i
  have h1 : (i 1 : Nat) < 128 := idx2_lt1 i
  match a with
  | ⟨0, _⟩ =>
    show win1_3.index ⟨9, t9_lt⟩ 0 * win1_3.size 0 ≤ (i 0 : Nat) ∧ (i 0 : Nat) < win1_3.index ⟨9, t9_lt⟩ 0 * win1_3.size 0 + win1_3.xsize (grid1.coords ⟨9, t9_lt⟩) 0
    rw [show win1_3.index ⟨9, t9_lt⟩ 0 * win1_3.size 0 = 0 from by decide +kernel, show win1_3.xsize (grid1.coords ⟨9, t9_lt⟩) 0 = 1 from by decide +kernel]; omega
  | ⟨1, _⟩ =>
    show win1_3.index ⟨9, t9_lt⟩ 1 * win1_3.size 1 ≤ (i 1 : Nat) ∧ (i 1 : Nat) < win1_3.index ⟨9, t9_lt⟩ 1 * win1_3.size 1 + win1_3.xsize (grid1.coords ⟨9, t9_lt⟩) 1
    rw [show win1_3.index ⟨9, t9_lt⟩ 1 * win1_3.size 1 = 0 from by decide +kernel, show win1_3.xsize (grid1.coords ⟨9, t9_lt⟩) 1 = 128 from by decide +kernel]; omega

theorem cover4 (i : S1x128.Idx) :
    ∃ t : Fin cfg1.N, (cfg1.win 4).flush t = true ∧ i ∈ ((cfg1.win 4).blk t).view.set := by
  refine ⟨⟨9, t9_lt⟩, (flush1_4 _).mpr rfl, ?_⟩
  show i ∈ ((View.whole main_v39_2).slice (win1_4.rect ⟨9, t9_lt⟩)).set
  rw [View.set_slice_whole, Rect.mem_set_unit]
  intro a
  have h0 : (i 0 : Nat) < 1 := idx2_lt0 i
  have h1 : (i 1 : Nat) < 128 := idx2_lt1 i
  match a with
  | ⟨0, _⟩ =>
    show win1_4.index ⟨9, t9_lt⟩ 0 * win1_4.size 0 ≤ (i 0 : Nat) ∧ (i 0 : Nat) < win1_4.index ⟨9, t9_lt⟩ 0 * win1_4.size 0 + win1_4.xsize (grid1.coords ⟨9, t9_lt⟩) 0
    rw [show win1_4.index ⟨9, t9_lt⟩ 0 * win1_4.size 0 = 0 from by decide +kernel, show win1_4.xsize (grid1.coords ⟨9, t9_lt⟩) 0 = 1 from by decide +kernel]; omega
  | ⟨1, _⟩ =>
    show win1_4.index ⟨9, t9_lt⟩ 1 * win1_4.size 1 ≤ (i 1 : Nat) ∧ (i 1 : Nat) < win1_4.index ⟨9, t9_lt⟩ 1 * win1_4.size 1 + win1_4.xsize (grid1.coords ⟨9, t9_lt⟩) 1
    rw [show win1_4.index ⟨9, t9_lt⟩ 1 * win1_4.size 1 = 0 from by decide +kernel, show win1_4.xsize (grid1.coords ⟨9, t9_lt⟩) 1 = 128 from by decide +kernel]; omega

/-- The column sum with rows counted by natural numbers is the sum over the array's rows. -/
theorem colsum_apply (g : EReal → EReal) (c : Dev nD) (j : S1x128.Idx) :
    colsum V g c j = ∑ r : Fin 100000, g (biased V c (ix2 r (j 1))) := by
  show ∑ r ∈ Finset.range 100000, rowv V g c (j 1) r = _
  rw [← Fin.sum_univ_eq_sum_range (fun r => rowv V g c (j 1) r) 100000]
  refine Finset.sum_congr rfl fun r _ => ?_
  unfold rowv
  rw [dif_pos r.isLt]

end Region1

open Region1

/-- Output 2: the biased features. -/
theorem region1_hpre (c : Dev nD) : r1_hpre V c = biased V c :=
  (dat1 V c).arrAt_eq_of_cover 2 (biased V c) (fun t _ => flushed2_eq V c t) (cover2)

/-- Output 3: per column, the sum of the biased features over all rows. -/
theorem region1_sum (c : Dev nD) (j : S1x128.Idx) :
    r1_sum V c j = ∑ r : Fin 100000, biased V c (ix2 r (j 1)) := by
  have e : r1_sum V c = colsum V (fun x => x) c :=
    (dat1 V c).arrAt_eq_of_cover 3 (colsum V (fun x => x) c) (flushed3_eq V c) (cover3)
  rw [e, colsum_apply]

/-- Output 4: per column, the sum of their squares. -/
theorem region1_sumsq (c : Dev nD) (j : S1x128.Idx) :
    r1_sumsq V c j = ∑ r : Fin 100000, biased V c (ix2 r (j 1)) * biased V c (ix2 r (j 1)) := by
  have e : r1_sumsq V c = colsum V (fun x => x * x) c :=
    (dat1 V c).arrAt_eq_of_cover 4 (colsum V (fun x => x * x) c) (flushed4_eq V c) (cover4)
  rw [e, colsum_apply]

end Cert.Bridge

end
-- ==== Proof.FoldB.lean ====
/-
  The first aggregation and the statistics pallas_call.  With the source ids in range the kernel's take is the
  reference's gather, so the aggregate is the reference's; the statistics kernel leaves the biased aggregate and
  its column sums and column sums of squares.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402435_j14594298872380_1_alg».proof.Proof.Walk
import proofs.«402435_j14594298872380_1_alg».proof.Proof.FoldA
import proofs.«402435_j14594298872380_1_alg».proof.Proof.TakeGather
import proofs.«402435_j14594298872380_1_alg».proof.Proof.Region1
import proofs.«402435_j14594298872380_1_alg».proof.Proof.PreDecode

noncomputable section

namespace Cert.Bridge

open Idealize.ShloMosaic Idealize.ShloMosaic.TcCoe Idealize.SL.Sem
open Idealize.ShloMosaic.Pipeline (Dat)
open Cert.KernelIdeal Cert.KernelIdeal.Gen
open Idealize.ShloMosaic.StableHlo

open ValueIdx
open Cert.ReferenceIdeal.ReadP (val_main_v3 val_main_v6 val_main_v29 val_main_v30 val_main_v43 val_main_v46 val_main_v49 val_main_v56 val_main_v72 val_main_v73 val_main_v89)
variable (m : (ℓ : Loc nD τ sig) → Buf (Elt Ideal) ℓ) (ρ : Dev nD → PrngReg)

/-- The hypothesis the precondition gives: the edges' source ids are in range. -/
abbrev SrcInRange (c : Dev nD) : Prop := ∀ j, 0 ≤ (srcIds (x1 m c) j).toInt ∧ (srcIds (x1 m c) j).toInt < 100000

/-! ### Typed references: a value moved to its buffer's type and back is itself -/

private theorem foldB_ofBuf_toBuf {Val : EltTy → Type} {T : BufTy} (x : TRef sig T) (v : T.Contents Val) :
    x.ofBuf (x.toBuf v) = v := by
  obtain ⟨r, h, _, _⟩ := x
  subst h
  rfl

private theorem foldB_toBuf_of {Val : EltTy → Type} (r : Ref sig .tc) (hd) (hu) (v : r.ty.Contents Val) :
    (TRef.of (T := r.ty) r rfl hd hu).toBuf v = v := rfl

/-! ### The first take -/

/-- The gathered rows the kernel's host code leaves are the take of the first product's rows at the source ids. -/
private theorem foldB_W5_take (c : Dev nD) :
    (W5 m ρ c (Proc.devRef .tc main_v31) : FVec Ideal S1700000x128 .f32)
      = take128 (W4 m ρ c (Proc.devRef .tc main_v30)) (W4 m ρ c (Proc.devRef .tc main_v3)) := by
  dsimp only [W5]
  after_results_simp
  simp only [foldB_ofBuf_toBuf]
  have e3 : (TRef.of main_v3 : TRef sig ⟨S1700000, .i32⟩).ofBuf (W4 m ρ c (Proc.devRef .tc main_v3))
      = (W4 m ρ c (Proc.devRef .tc main_v3) : IVec S1700000 32) := rfl
  have e30 : (TRef.of main_v30 : TRef sig ⟨S100000x128, .f32⟩).ofBuf (W4 m ρ c (Proc.devRef .tc main_v30))
      = (W4 m ρ c (Proc.devRef .tc main_v30) : FVec Ideal S100000x128 .f32) := rfl
  simp only [e3, e30]
  refine (foldB_toBuf_of main_v31 _ _ _).trans ?_
  unfold take128
  rfl

/-- The reference's source ids are the edges' sources followed by one self-loop per node. -/
private theorem foldB_src_eq (c : Dev nD) : val_main_v3 (F := Ideal) (x1 m c) = allSrc (srcIds (x1 m c)) := by
  unfold val_main_v3 Cert.ReferenceIdeal.ReadP.val_main_v2 Cert.ReferenceIdeal.ReadP.val_main_v1
    Cert.ReferenceIdeal.ReadP.val_main_v0
  rfl

/-- At the statistics kernel's entry its first operand is the reference's first aggregate. -/
theorem W6_agg (c : Dev nD) (hs : SrcInRange m c) :
    W6 m ρ c (Proc.devRef .tc main_v37) = val_main_v43 (F := Ideal) (x0 m c) (x1 m c) (x2 m c) := by
  dsimp only [W6]
  generalize hV : W5 m ρ c = V
  after_results
  subst hV
  -- every source id is a node: the take is the plain gather
  have hr : ∀ k, 0 ≤ (val_main_v3 (F := Ideal) (x1 m c) k).toInt
      ∧ (val_main_v3 (F := Ideal) (x1 m c) k).toInt < 100000 := by
    rw [foldB_src_eq]; exact allSrc_in_range _ hs
  rw [foldB_W5_take m ρ c, W5_dst m ρ c, W5_nrm m ρ c, W3_dst m ρ c, W3_nrm m ρ c, W4_lin m ρ c, W4_src m ρ c,
    W3_src m ρ c, take128_eq _ _ hr]
  -- the reference's aggregate, one operation at a time: the same scatter-add of the same weighted gather
  unfold val_main_v43 Cert.ReferenceIdeal.ReadP.val_main_v41 Cert.ReferenceIdeal.ReadP.val_main_cst_8
    Cert.ReferenceIdeal.ReadP.val_main_v42 Cert.ReferenceIdeal.ReadP.val_main_v40 Cert.ReferenceIdeal.ReadP.val_main_v37
    Cert.ReferenceIdeal.ReadP.val_main_v39 Cert.ReferenceIdeal.ReadP.val_main_v38 Cert.ReferenceIdeal.ReadP.val_main_v36
    Cert.ReferenceIdeal.ReadP.val_main_v35 Cert.ReferenceIdeal.ReadP.val_main_v34 Cert.ReferenceIdeal.ReadP.val_main_v33
    Cert.ReferenceIdeal.ReadP.val_main_c_7 Cert.ReferenceIdeal.ReadP.val_main_v32 Cert.ReferenceIdeal.ReadP.val_main_v31
    Cert.ReferenceIdeal.ReadP.val_main_c_6
  rfl
/-- … and its second operand is the bias as one row. -/
theorem W6_bias (c : Dev nD) (j : S1x128.Idx) :
    (W6 m ρ c (Proc.devRef .tc main_v38) : FVec Ideal S1x128 .f32) j = x3 m c (ix1 (j 1)) := by
  dsimp only [W6]
  generalize hV : W5 m ρ c = V
  after_results
  subst hV
  -- a [128] vector seen as one row [1, 128]: entry (0, l) is entry l
  show shapeCast S1x128 (W5 m ρ c (Proc.devRef .tc main_arg3) : FVec Ideal S128 .f32) shapeCasts_S128_S1x128 j = _
  rw [W5_arg3 m ρ c]
  have hj : j = ix2 (j 0) (j 1) := eq_ix2 j
  calc shapeCast S1x128 (x3 m c) shapeCasts_S128_S1x128 j
      = shapeCast S1x128 (x3 m c) shapeCasts_S128_S1x128 (ix2 (j 0) (j 1)) :=
        congrArg (shapeCast S1x128 (x3 m c) shapeCasts_S128_S1x128) hj
    _ = x3 m c (ix1 (j 1)) := shapeCast_a_1a_apply _ _ _ _

/-- The biased features at the statistics kernel's entry are the reference's biased aggregate: the reference spreads
    the bias [128] → [1, 128] → [100000, 128], so entry (r, l) adds the bias at l. -/
private theorem foldB_biased_eq (c : Dev nD) (hs : SrcInRange m c) :
    biased (V6 m ρ) c = val_main_v46 (F := Ideal) (x0 m c) (x1 m c) (x2 m c) (x3 m c) := by
  funext i
  have hA : r1_agg (V6 m ρ) c = val_main_v43 (F := Ideal) (x0 m c) (x1 m c) (x2 m c) := W6_agg m ρ c hs
  have hB : ∀ j : S1x128.Idx, r1_bias (V6 m ρ) c j = x3 m c (ix1 (j 1)) := W6_bias m ρ c
  show r1_agg (V6 m ρ) c i + r1_bias (V6 m ρ) c (ix2 (0 : Fin 1) (i 1)) = _
  rw [hA, hB, Cert.ReferenceIdeal.ReadP.val_main_v46_apply,
    Cert.ReferenceIdeal.ReadP.val_main_v45_apply, Cert.ReferenceIdeal.ReadP.val_main_v44_apply]
  have e : (ix1 ((ix2 (0 : Fin 1) (i 1) : S1x128.Idx) 1) : S128.Idx)
      = Cert.ReferenceIdeal.ReadP.idx_main_v44 (Cert.ReferenceIdeal.ReadP.idx_main_v45 i) := by
    funext d; match d with | ⟨0, _⟩ => rfl
  rw [e]
  rfl

/-- After it, output 2 is the reference's biased aggregate. -/
theorem W7_hpre (c : Dev nD) (hs : SrcInRange m c) :
    W7 m ρ c (Proc.devRef .tc main_v39_0) = val_main_v46 (F := Ideal) (x0 m c) (x1 m c) (x2 m c) (x3 m c) :=
  (W7_arr m ρ c 2).trans ((region1_hpre (V6 m ρ) c).trans (foldB_biased_eq m ρ c hs))
/-- … output 3 its column sums … -/
theorem W7_sum (c : Dev nD) (hs : SrcInRange m c) (j : S1x128.Idx) :
    (W7 m ρ c (Proc.devRef .tc main_v39_1) : FVec Ideal S1x128 .f32) j
      = ∑ r : Fin 100000, val_main_v46 (F := Ideal) (x0 m c) (x1 m c) (x2 m c) (x3 m c) (ix2 r (j 1)) := by
  have h3 : W7 m ρ c (Proc.devRef .tc main_v39_1) = r1_sum (V6 m ρ) c := W7_arr m ρ c 3
  rw [h3, region1_sum (V6 m ρ) c j, foldB_biased_eq m ρ c hs]
/-- … and output 4 the column sums of its squares. -/
theorem W7_sumsq (c : Dev nD) (hs : SrcInRange m c) (j : S1x128.Idx) :
    (W7 m ρ c (Proc.devRef .tc main_v39_2) : FVec Ideal S1x128 .f32) j
      = ∑ r : Fin 100000, val_main_v46 (F := Ideal) (x0 m c) (x1 m c) (x2 m c) (x3 m c) (ix2 r (j 1))
          * val_main_v46 (F := Ideal) (x0 m c) (x1 m c) (x2 m c) (x3 m c) (ix2 r (j 1)) := by
  have h4 : W7 m ρ c (Proc.devRef .tc main_v39_2) = r1_sumsq (V6 m ρ) c := W7_arr m ρ c 4
  rw [h4, region1_sumsq (V6 m ρ) c j, foldB_biased_eq m ρ c hs]

end Cert.Bridge

end
-- ==== Proof.Consts.lean ====
/-
  The float constants both programs spell whose VALUE the bridge needs: the row count 100000.0 (the divisor of the
  mean and of the variance) and +0.0.
-/
import Idealize.ShloMosaic.PureOps.Ideal

noncomputable section

namespace Cert.Bridge

open Idealize.ShloMosaic

/-- `100000.0` denotes the real number 100000. -/
theorem ofBits_1e5 : Ideal.ofBits .f32 0x47C35000#32 = ((100000 : ℝ) : EReal) := by
  simp [Ideal.ofBits, Ideal.ieee, -EReal.coe_mul]; norm_num

/-- `+0.0` denotes 0. -/
theorem ofBits_zero : Ideal.ofBits .f32 0x00000000#32 = (0 : EReal) := by
  simp [Ideal.ofBits, Ideal.ieee]

end Cert.Bridge

end
-- ==== Proof.Variance.lean ====
/-
  The one algebraic law between the two programs: for n real numbers h_r with mean μ = (Σ h_r)/n,
      (Σ h_r²)/n − μ·μ  =  (Σ (h_r − μ)²)/n .
  Over the reals this is Σ(h−μ)² = Σh² − 2μΣh + nμ² = Σh² − nμ².  On the extended reals it FAILS at an infinite h_r
  (∞ − ∞), so it is stated for real h_r only; here n = 100000, written as both programs write it.
-/
import proofs.«402435_j14594298872380_1_alg».proof.Proof.Consts
import Mathlib.Tactic.Ring
import Mathlib.Tactic.NormNum

noncomputable section

namespace Cert.Bridge

open Idealize.ShloMosaic

/-- The divisor as both programs spell it. -/
abbrev nRows : EReal := Ideal.ofBits .f32 0x47C35000#32

/-- The divisor is the real number 100000. -/
theorem nRows_eq : nRows = ((100000 : ℝ) : EReal) := ofBits_1e5

/-- The embedding of the reals commutes with a finite sum (additivity of the embedding, by induction on the
    index set). -/
theorem coe_sum_real {ι : Type} (s : Finset ι) (f : ι → ℝ) :
    ∑ r ∈ s, ((f r : ℝ) : EReal) = ((∑ r ∈ s, f r : ℝ) : EReal) := by
  classical
  induction s using Finset.induction_on with
  | empty => simp
  | insert a s ha ih => rw [Finset.sum_insert ha, Finset.sum_insert ha, ih, EReal.coe_add]

/-- The real identity: with c·n = 1 and μ = S·c,  Q·c − μ·μ = (Σ (x − μ)²)·c  where S = Σx, Q = Σx².
    Expand the square, sum termwise, and use c·n = 1. -/
theorem var_identity_real (x : Fin 100000 → ℝ) :
    (∑ r, x r * x r) * (1 / 100000 : ℝ) - (∑ r, x r) * (1 / 100000 : ℝ) * ((∑ r, x r) * (1 / 100000 : ℝ))
      = (∑ r, (x r - (∑ r, x r) * (1 / 100000 : ℝ)) * (x r - (∑ r, x r) * (1 / 100000 : ℝ))) * (1 / 100000 : ℝ) := by
  generalize hS : (∑ r, x r) = S
  have e : ∀ r, (x r - S * (1 / 100000 : ℝ)) * (x r - S * (1 / 100000 : ℝ))
      = x r * x r - 2 * (S * (1 / 100000 : ℝ)) * x r + (S * (1 / 100000 : ℝ)) * (S * (1 / 100000 : ℝ)) :=
    fun r => by ring
  simp only [e, Finset.sum_add_distrib, Finset.sum_sub_distrib, ← Finset.mul_sum, Finset.sum_const,
    Finset.card_univ, Fintype.card_fin, nsmul_eq_mul, hS]
  push_cast
  ring

/-- The mean of squares less the squared mean is the mean of squared deviations, for real entries. -/
theorem var_identity (h : Fin 100000 → EReal) (hh : ∀ r, ∃ x : ℝ, h r = (x : EReal)) :
    Ideal.div (∑ r, h r * h r) nRows - Ideal.div (∑ r, h r) nRows * Ideal.div (∑ r, h r) nRows
      = Ideal.div (∑ r, (h r - Ideal.div (∑ r, h r) nRows) * (h r - Ideal.div (∑ r, h r) nRows)) nRows := by
  choose x hx using hh
  have hn : (100000 : ℝ) ≠ 0 := by norm_num
  simp only [hx, nRows_eq, Ideal.div_coe hn, ← EReal.coe_mul, coe_sum_real, ← EReal.coe_sub]
  rw [EReal.coe_eq_coe_iff]
  exact var_identity_real x

/-- The mean of real entries is real. -/
theorem mean_real (h : Fin 100000 → EReal) (hh : ∀ r, ∃ x : ℝ, h r = (x : EReal)) :
    ∃ μ : ℝ, Ideal.div (∑ r, h r) nRows = (μ : EReal) := by
  choose x hx using hh
  have hn : (100000 : ℝ) ≠ 0 := by norm_num
  refine ⟨(∑ r, x r) * (1 / 100000 : ℝ), ?_⟩
  simp only [hx, nRows_eq, Ideal.div_coe hn, ← EReal.coe_mul, coe_sum_real]

end Cert.Bridge

end
-- ==== Proof.Finite.lean ====
/-
  The biased aggregate of the first layer is real wherever the float inputs are.  A matrix product of real entries is
  a finite sum of real products; a gathered row is a row of the table; a degree's reciprocal square root, taken only
  where the degree is positive, is real (at an infinite degree it is 0) and is replaced by 0 elsewhere, so every
  message weight is real; a scatter-add puts a finite sum of real messages on a zero; the bias is real.
-/
import proofs.«402435_j14594298872380_1_alg».proof.Proof.RefReadP
import proofs.«402435_j14594298872380_1_alg».proof.Proof.Basics
import Idealize.ShloMosaic.PureOps.Ideal.Laws

noncomputable section

namespace Cert.Bridge

open Idealize.ShloMosaic Cert.ReferenceIdeal
open Cert.ReferenceIdeal.ReadP (val_main_v46)

namespace FiniteAux

/-- A finite sum of real numbers, taken in the extended reals, is a real number. -/
theorem exists_real_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    obtain ⟨ra, hra⟩ := hf a (Finset.mem_insert_self a s)
    obtain ⟨rs, hrs⟩ := ih (fun j hj => hf j (Finset.mem_insert_of_mem hj))
    exact ⟨ra + rs, by rw [Finset.sum_insert ha, hra, hrs, EReal.coe_add]⟩

/-- An array whose every entry is an entry of a real array is real: a gather reads the table at a computed row. -/
theorem isReal_gather {s si t : Shape} {w : Nat} (d : GatherDims s si t) (x : FVec Ideal s .f32) (idx : IVec si w)
    (hx : IsReal x) : IsReal (Host.gather d x idx) :=
  fun j => hx (d.operandIdx j idx)

/-- A broadcast repeats entries of its operand. -/
theorem isReal_broadcastInDim {s t : Shape} (dims : Fin s.rank → Fin t.rank) (h : s.BroadcastsInDim t dims)
    (x : FVec Ideal s .f32) (hx : IsReal x) : IsReal (broadcastInDim t dims h x) :=
  fun j => hx _

/-- A product of reals is real. -/
theorem isReal_mulf {s : Shape} (x y : FVec Ideal s .f32) (hx : IsReal x) (hy : IsReal y) : IsReal (mulf x y) := by
  intro i
  obtain ⟨a, ha⟩ := hx i
  obtain ⟨b, hb⟩ := hy i
  refine ⟨a * b, ?_⟩
  show x i * y i = _
  rw [ha, hb, EReal.coe_mul]

/-- A sum of two reals is real. -/
theorem isReal_addf {s : Shape} (x y : FVec Ideal s .f32) (hx : IsReal x) (hy : IsReal y) : IsReal (addf x y) := by
  intro i
  obtain ⟨a, ha⟩ := hx i
  obtain ⟨b, hb⟩ := hy i
  refine ⟨a + b, ?_⟩
  show x i + y i = _
  rw [ha, hb, EReal.coe_add]

/-- An accumulating scatter of real updates onto a real array: each entry is its old value plus a finite sum of updates. -/
theorem isReal_scatterAdd {s si u : Shape} {w : Nat} (d : ScatterDims s si u) (x : FVec Ideal s .f32) (idx : IVec si w)
    (upd : FVec Ideal u .f32) (hx : IsReal x) (hu : IsReal upd) : IsReal (Host.scatterAdd d x idx upd) := by
  intro i
  obtain ⟨a, ha⟩ := hx i
  obtain ⟨b, hb⟩ := exists_real_sum (Finset.univ.filter (fun j => d.resultIdx? j idx = some i)) upd (fun j _ => hu j)
  refine ⟨a + b, ?_⟩
  show x i + ∑ j ∈ Finset.univ.filter (fun j => d.resultIdx? j idx = some i), upd j = _
  rw [ha, hb, EReal.coe_add]

/-- A matrix product of real arrays: each entry is a finite sum of products of reals. -/
theorem isReal_dotGeneral {sl sr so : Shape} (d : DotDims sl sr so) (prec : Option ContractPrecision)
    (x : FVec Ideal sl .f32) (y : FVec Ideal sr .f32) (hx : IsReal x) (hy : IsReal y) :
    IsReal (Host.dotGeneral d prec x y) := by
  intro j
  show ∃ r : ℝ, FloatOps.dotGeneral d prec .single x y j = (r : EReal)
  rw [Ideal.dotGeneral_apply]
  refine exists_real_sum _ _ (fun k _ => ?_)
  obtain ⟨a, ha⟩ := hx (d.lhsIdx j k)
  obtain ⟨b, hb⟩ := hy (d.rhsIdx j k)
  exact ⟨a * b, by rw [ha, hb, EReal.coe_mul]⟩

/-- The reciprocal square root of a positive extended real is real (0 at +∞). -/
theorem exists_real_rsqrt (d : EReal) (hd : 0 < d) : ∃ r : ℝ, Ideal.rsqrt d = (r : EReal) := by
  induction d using EReal.rec with
  | bot => exact absurd hd (not_lt_bot)
  | top => exact ⟨0, by rw [Ideal.rsqrt_top, EReal.coe_zero]⟩
  | coe x =>
    have hx : 0 < x := by exact_mod_cast hd
    refine ⟨(Real.sqrt x)⁻¹, ?_⟩
    rw [Ideal.rsqrt_coe, if_neg (not_lt.mpr hx.le), if_neg hx.ne']

/-- The reciprocal square root kept where the argument exceeds a zero array, a real array elsewhere. -/
theorem isReal_select_rsqrt {s : Shape} (v z c : FVec Ideal s .f32) (hz : ∀ i, z i = (0 : EReal)) (hc : IsReal c) :
    IsReal (select (cmpf (F := Ideal) .ogt v z) (Host.rsqrt v) c) := by
  intro i
  show ∃ r : ℝ, (if Ideal.cmp .ogt (v i) (z i) = 1 then Ideal.rsqrt (v i) else c i) = (r : EReal)
  rw [hz i]
  by_cases h : (0 : EReal) < v i
  · have : Ideal.cmp .ogt (v i) 0 = 1 := by
      show BitVec.ofBool (decide ((0 : EReal) < v i)) = 1
      rw [decide_eq_true h]; rfl
    rw [if_pos this]
    exact exists_real_rsqrt _ h
  · have : Ideal.cmp .ogt (v i) 0 ≠ 1 := by
      show BitVec.ofBool (decide ((0 : EReal) < v i)) ≠ 1
      rw [decide_eq_false h]; decide
    rw [if_neg this]
    exact hc i

/-! ### The reference's stages, one at a time -/

/-- The threshold the degrees are compared with is the zero array. -/
theorem v11_zero (i : S100000.Idx) : ReadP.val_main_v11 (F := Ideal) i = (0 : EReal) := by
  rw [ReadP.val_main_v11_apply, ReadP.val_main_cst_1_apply]
  exact Ideal.ofBits_zero_f32

/-- The value kept where the degree is not positive is the zero array. -/
theorem call0_v1_real : IsReal (ReadP.val_main_call0_v1 (F := Ideal)) := by
  intro i
  refine ⟨0, ?_⟩
  rw [ReadP.val_main_call0_v1_apply, ReadP.val_main_call0_v0_apply, ReadP.val_main_cst_2_apply, EReal.coe_zero]
  exact Ideal.ofBits_zero_f32

/-- The normalising weight of a node: the reciprocal square root of its degree where positive, else 0. -/
theorem v14_real (a1 : IVec S2x1600000 32) : IsReal (ReadP.val_main_v14 (F := Ideal) a1) := by
  unfold ReadP.val_main_v14 ReadP.val_main_v12 ReadP.val_main_v13
  exact isReal_select_rsqrt _ _ _ v11_zero call0_v1_real

/-- The weight of an edge's first endpoint: a gathered node weight. -/
theorem v21_real (a1 : IVec S2x1600000 32) : IsReal (ReadP.val_main_v21 (F := Ideal) a1) := by
  unfold ReadP.val_main_v21
  exact isReal_gather _ _ _ (v14_real a1)

/-- The weight of an edge's second endpoint: a gathered node weight. -/
theorem v28_real (a1 : IVec S2x1600000 32) : IsReal (ReadP.val_main_v28 (F := Ideal) a1) := by
  unfold ReadP.val_main_v28
  exact isReal_gather _ _ _ (v14_real a1)

/-- The weight of an edge: the product of its endpoints' weights. -/
theorem v29_real (a1 : IVec S2x1600000 32) : IsReal (ReadP.val_main_v29 (F := Ideal) a1) := by
  unfold ReadP.val_main_v29
  exact isReal_mulf _ _ (v21_real a1) (v28_real a1)

/-- The edge weights repeated along the feature axis. -/
theorem v39_real (a1 : IVec S2x1600000 32) : IsReal (ReadP.val_main_v39 (F := Ideal) a1) := by
  unfold ReadP.val_main_v39 ReadP.val_main_v38
  exact isReal_broadcastInDim _ _ _ (isReal_broadcastInDim _ _ _ (v29_real a1))

/-- The transformed features x·W₁. -/
theorem v30_real (a0 : FVec Ideal S100000x128 .f32) (a2 : FVec Ideal S128x128 .f32) (h0 : IsReal a0) (h2 : IsReal a2) :
    IsReal (ReadP.val_main_v30 (F := Ideal) a0 a2) := by
  unfold ReadP.val_main_v30
  exact isReal_dotGeneral _ _ _ _ h0 h2

/-- The transformed features of each edge's source: gathered rows of x·W₁. -/
theorem v37_real (a0 : FVec Ideal S100000x128 .f32) (a1 : IVec S2x1600000 32) (a2 : FVec Ideal S128x128 .f32)
    (h0 : IsReal a0) (h2 : IsReal a2) : IsReal (ReadP.val_main_v37 (F := Ideal) a0 a1 a2) := by
  unfold ReadP.val_main_v37
  exact isReal_gather _ _ _ (v30_real a0 a2 h0 h2)

/-- The messages: gathered rows scaled by the edge weights. -/
theorem v40_real (a0 : FVec Ideal S100000x128 .f32) (a1 : IVec S2x1600000 32) (a2 : FVec Ideal S128x128 .f32)
    (h0 : IsReal a0) (h2 : IsReal a2) : IsReal (ReadP.val_main_v40 (F := Ideal) a0 a1 a2) := by
  unfold ReadP.val_main_v40
  exact isReal_mulf _ _ (v37_real a0 a1 a2 h0 h2) (v39_real a1)

/-- The array the messages are accumulated onto is the zero array. -/
theorem v41_real : IsReal (ReadP.val_main_v41 (F := Ideal)) := by
  intro i
  refine ⟨0, ?_⟩
  rw [ReadP.val_main_v41_apply, ReadP.val_main_cst_8_apply, EReal.coe_zero]
  exact Ideal.ofBits_zero_f32

/-- The aggregate: at each node and feature, a finite sum of messages. -/
theorem v43_real (a0 : FVec Ideal S100000x128 .f32) (a1 : IVec S2x1600000 32) (a2 : FVec Ideal S128x128 .f32)
    (h0 : IsReal a0) (h2 : IsReal a2) : IsReal (ReadP.val_main_v43 (F := Ideal) a0 a1 a2) := by
  unfold ReadP.val_main_v43
  exact isReal_scatterAdd _ _ _ _ v41_real (v40_real a0 a1 a2 h0 h2)

/-- The bias repeated along the node axis. -/
theorem v45_real (a3 : FVec Ideal S128 .f32) (h3 : IsReal a3) : IsReal (ReadP.val_main_v45 (F := Ideal) a3) := by
  unfold ReadP.val_main_v45 ReadP.val_main_v44
  exact isReal_broadcastInDim _ _ _ (isReal_broadcastInDim _ _ _ h3)

end FiniteAux

open FiniteAux in
/-- The first layer's biased aggregate holds real numbers when x, W₁ and b₁ do (whatever the edge list). -/
theorem hpre_real (a0 : FVec Ideal S100000x128 .f32) (a1 : IVec S2x1600000 32) (a2 : FVec Ideal S128x128 .f32)
    (a3 : FVec Ideal S128 .f32) (h0 : IsReal a0) (h2 : IsReal a2) (h3 : IsReal a3) :
    IsReal (val_main_v46 (F := Ideal) a0 a1 a2 a3) := by
  unfold val_main_v46
  exact isReal_addf _ _ (v43_real a0 a1 a2 h0 h2) (v45_real a3 h3)

end Cert.Bridge

end
-- ==== Proof.Region2.lean ====
/-
  The batch-norm apply pallas_call: pointwise.  Every entry of a row block becomes
      max( ((h − mean_j) · rsqrt(var_j + ε)) · γ_j + β_j , 0 )
  with the four 1×128 rows read whole at every grid point; the ten row blocks tile the result.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Idealize.ShloMosaic Idealize.ShloMosaic.TcCoe Idealize.SL.Sem
open Idealize.ShloMosaic.Pipeline (Dat)
open Cert.KernelIdeal Cert.KernelIdeal.Gen

open ValueIdx
variable (V : (c : Dev nD) → (b : Ref sig .tc) → Buf (Elt Ideal) ((c : Thread nD τ).loc b))

/-- The region's operand arrays as it finds them: the features and the mean, variance, scale and shift rows. -/
abbrev r2_h (c : Dev nD) : FVec Ideal S100000x128 .f32 := V c main_v39_0
abbrev r2_mean (c : Dev nD) : FVec Ideal S1x128 .f32 := V c main_v48
abbrev r2_var (c : Dev nD) : FVec Ideal S1x128 .f32 := V c main_v49
abbrev r2_gamma (c : Dev nD) : FVec Ideal S1x128 .f32 := V c main_v50
abbrev r2_beta (c : Dev nD) : FVec Ideal S1x128 .f32 := V c main_v51
/-- Its result array after the last grid point. -/
abbrev r2_out (c : Dev nD) : FVec Ideal S100000x128 .f32 := (dat2 (F := Ideal) V c).arrAt 5 cfg2.N

/-- The zero offsets of a whole-block access, as the constant function. -/
theorem r2_hz : (![0, 0] : Fin 2 → Nat) = fun _ => 0 := funext fun a => by
  match a with
  | ⟨0, _⟩ => rfl
  | ⟨1, _⟩ => rfl

/-- The body's payload as a tree of whole-block operations. -/
theorem r2_pay_eq (x0 : Vec Ideal S10000x128 .f32) (xv xm xg xb : Vec Ideal S1x128 .f32) :
    k2_pay1 (F := Ideal) x0 xv xm xg xb
      = maximumf (addf (mulf (mulf (subf x0 (broadcastTo S10000x128 xm broadcasts_S1x128_S10000x128))
            (broadcastTo S10000x128 (rsqrt (addf xv (broadcast S1x128 (Scalar.ofBits .f32 0x3727C5AC#32)))) broadcasts_S1x128_S10000x128))
            (broadcastTo S10000x128 xg broadcasts_S1x128_S10000x128))
            (broadcastTo S10000x128 xb broadcasts_S1x128_S10000x128))
          (broadcast S10000x128 (Scalar.ofBits .f32 0x00000000#32)) := by
  unfold k2_pay1
  simp only [shapeCast_self]

/-- A row broadcast down the block reads the row at the same column. -/
theorem r2_bcast_row (x : Vec Ideal S1x128 .f32) (p : Fin 10000) (q : Fin 128) :
    broadcastTo S10000x128 x broadcasts_S1x128_S10000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- The payload at an entry of the block. -/
theorem r2_pay_apply (x0 : Vec Ideal S10000x128 .f32) (xv xm xg xb : Vec Ideal S1x128 .f32) (p : Fin 10000) (q : Fin 128) :
    k2_pay1 (F := Ideal) x0 xv xm xg xb (ix2 p q)
      = max ((((x0 (ix2 p q) - xm (ix2 (0 : Fin 1) q))
              * Ideal.rsqrt (xv (ix2 (0 : Fin 1) q) + Ideal.ofBits .f32 0x3727C5AC#32))
            * xg (ix2 (0 : Fin 1) q))
          + xb (ix2 (0 : Fin 1) q)) 0 := by
  rw [r2_pay_eq]
  rw [maximumf_apply, addf_apply, mulf_apply, mulf_apply, subf_apply, broadcast_apply,
    r2_bcast_row, r2_bcast_row, r2_bcast_row, r2_bcast_row]
  show max ((((x0 (ix2 p q) - xm (ix2 (0 : Fin 1) q))
              * Ideal.rsqrt (xv (ix2 (0 : Fin 1) q) + Ideal.ofBits .f32 0x3727C5AC#32))
            * xg (ix2 (0 : Fin 1) q))
          + xb (ix2 (0 : Fin 1) q)) (Ideal.ofBits .f32 0x00000000#32) = _
  rw [Ideal.ofBits_zero_f32]

/-- What the region's result array ends holding, entry by entry. -/
abbrev r2_G (c : Dev nD) : FVec Ideal S100000x128 .f32 := fun i =>
  max ((((r2_h V c i - r2_mean V c (ix2 (0 : Fin 1) (i 1)))
          * Ideal.rsqrt (r2_var V c (ix2 (0 : Fin 1) (i 1)) + Ideal.ofBits .f32 0x3727C5AC#32))
        * r2_gamma V c (ix2 (0 : Fin 1) (i 1)))
      + r2_beta V c (ix2 (0 : Fin 1) (i 1))) 0

/-- The printed index maps over the grid: the row-blocked windows sit at block (t, 0), the four rows at block (0, 0). -/
theorem r2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the features' block at point t is entry (10000·t + p, q) of the features. -/
theorem r2_iblk_h (c : Dev nD) (t : Fin cfg2.N) (p : Fin 10000) (q : Fin 128) (k : S100000x128.Idx)
    (hk0 : (k 0).val = 10000 * t.val + p.val) (hk1 : (k 1).val = q.val) :
    (iblk2 (F := Ideal) V c 0 t : Vec Ideal S10000x128 .f32) (ix2 p q) = r2_h V c k := by
  obtain ⟨e0, e1, -⟩ := r2_idx_facts t
  unfold iblk2
  rw [View.read_apply]
  show V c main_v39_0 _ = V c main_v39_0 k
  congr 1
  funext a
  apply Fin.ext
  match a with
  | ⟨0, _⟩ => show win2_0.index t (0 : Fin 2) * 10000 + 1 * p.val = (k 0).val; rw [e0, hk0]; omega
  | ⟨1, _⟩ => show win2_0.index t (1 : Fin 2) * 128 + 1 * q.val = (k 1).val; rw [e1, hk1]; omega

/-- Entry (0, q) of a row window's block, at any point, is entry (0, q) of the row. -/
theorem r2_iblk_mean (c : Dev nD) (t : Fin cfg2.N) (q : Fin 128) :
    (iblk2 (F := Ideal) V c 1 t : Vec Ideal S1x128 .f32) (ix2 (0 : Fin 1) q) = r2_mean V c (ix2 (0 : Fin 1) q) := by
  obtain ⟨-, -, e0, e1, -⟩ := r2_idx_facts t
  unfold iblk2
  rw [View.read_apply]
  show V c main_v48 _ = V c main_v48 (ix2 (0 : Fin 1) q)
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

theorem r2_iblk_var (c : Dev nD) (t : Fin cfg2.N) (q : Fin 128) :
    (iblk2 (F := Ideal) V c 2 t : Vec Ideal S1x128 .f32) (ix2 (0 : Fin 1) q) = r2_var V c (ix2 (0 : Fin 1) q) := by
  obtain ⟨-, -, -, -, e0, e1, -⟩ := r2_idx_facts t
  unfold iblk2
  rw [View.read_apply]
  show V c main_v49 _ = V c main_v49 (ix2 (0 : Fin 1) q)
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

theorem r2_iblk_gamma (c : Dev nD) (t : Fin cfg2.N) (q : Fin 128) :
    (iblk2 (F := Ideal) V c 3 t : Vec Ideal S1x128 .f32) (ix2 (0 : Fin 1) q) = r2_gamma V c (ix2 (0 : Fin 1) q) := by
  obtain ⟨-, -, -, -, -, -, e0, e1, -⟩ := r2_idx_facts t
  unfold iblk2
  rw [View.read_apply]
  show V c main_v50 _ = V c main_v50 (ix2 (0 : Fin 1) q)
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem r2_iblk_beta (c : Dev nD) (t : Fin cfg2.N) (q : Fin 128) :
    (iblk2 (F := Ideal) V c 4 t : Vec Ideal S1x128 .f32) (ix2 (0 : Fin 1) q) = r2_beta V c (ix2 (0 : Fin 1) q) := by
  obtain ⟨-, -, -, -, -, -, -, -, e0, e1, -⟩ := r2_idx_facts t
  unfold iblk2
  rw [View.read_apply]
  show V c main_v51 _ = V c main_v51 (ix2 (0 : Fin 1) q)
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- What point t writes back is its row block of the one whole-array function. -/
theorem r2_flushed_eq (c : Dev nD) (t : Fin cfg2.N) :
    (dat2 (F := Ideal) V c).flushed 5 t = ((cfg2.win 5).blk t).view.read (Elt Ideal) (r2_G V c) := by
  show (cfg2.win 5).cut (grid2.coords t) ((dat2 (F := Ideal) V c).after 5 t) = _
  rw [after2_5]
  unfold out2_5
  rw [View.canon_unit_zero r2_hz]
  simp only [View.ld_unit_zero (S := S10000x128) r2_hz, View.ld_unit_zero (S := S1x128) r2_hz]
  funext j
  obtain ⟨p, q, rfl⟩ : ∃ (p : Fin 10000) (q : Fin 128), j = ix2 p q := ⟨j 0, j 1, eq_ix2 j⟩
  have ht : t.val < 10 := t.isLt
  have e5 := (r2_idx_facts t).2.2.2.2.2.2.2.2.2.2
  have hemb : (((cfg2.win 5).blk t).view.emb (ix2 p q) : S100000x128.Idx)
      = ix2 (⟨10000 * t.val + p.val, by have := p.isLt; omega⟩ : Fin 100000) q := by
    funext a
    apply Fin.ext
    match a with
    | ⟨0, _⟩ => show win2_5.index t (0 : Fin 2) * 10000 + 1 * p.val = 10000 * t.val + p.val; rw [e5.1]; omega
    | ⟨1, _⟩ => show win2_5.index t (1 : Fin 2) * 128 + 1 * q.val = q.val; rw [e5.2]; omega
  show k2_pay1 (F := Ideal) (iblk2 V c 0 t) (iblk2 V c 2 t) (iblk2 V c 1 t) (iblk2 V c 3 t) (iblk2 V c 4 t) (ix2 p q)
      = r2_G V c (((cfg2.win 5).blk t).view.emb (ix2 p q))
  refine (r2_pay_apply (iblk2 V c 0 t) (iblk2 V c 2 t) (iblk2 V c 1 t) (iblk2 V c 3 t) (iblk2 V c 4 t) p q).trans ?_
  refine Eq.trans ?_ (congrArg (r2_G V c) hemb).symm
  rw [r2_iblk_h V c t p q (ix2 (⟨10000 * t.val + p.val, by have := p.isLt; omega⟩ : Fin 100000) q) rfl rfl,
    r2_iblk_mean V c t q, r2_iblk_var V c t q, r2_iblk_gamma V c t q, r2_iblk_beta V c t q]

/-- An entry of the result array lies in point t's block iff each coordinate is in the block's range on its axis. -/
theorem r2_mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v52).slice (win2_5.rect t)).set ↔ _
  rw [View.set_slice_whole, Rect.mem_set_unit]
  exact Iff.rfl

/-- The ten row blocks tile the result: row r lies in the block of point r / 10000. -/
theorem r2_cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show (i 0).val / 10000 < 10; omega⟩, rfl⟩
  have e5 := (r2_idx_facts t).2.2.2.2.2.2.2.2.2.2
  refine ⟨t, flush2_5 t, ?_⟩
  rw [r2_mem_blk]
  intro a
  match a with
  | ⟨0, _⟩ =>
    show win2_5.index t (0 : Fin 2) * 10000 ≤ (i 0).val ∧ (i 0).val < win2_5.index t (0 : Fin 2) * 10000 + 10000
    rw [e5.1, ht]; omega
  | ⟨1, _⟩ =>
    show win2_5.index t (1 : Fin 2) * 128 ≤ (i 1).val ∧ (i 1).val < win2_5.index t (1 : Fin 2) * 128 + 128
    rw [e5.2]; omega

/-- So after the last point the result array is that function. -/
theorem r2_final (c : Dev nD) : (dat2 (F := Ideal) V c).arrAt 5 cfg2.N = r2_G V c :=
  (dat2 (F := Ideal) V c).arrAt_eq_of_cover 5 (r2_G V c) (fun t _ => r2_flushed_eq V c t) r2_cover

/-- After the region the result array is the normalised, scaled, shifted and rectified input, entry by entry. -/
theorem region2_array (c : Dev nD) (i : S100000x128.Idx) :
    r2_out V c i
      = max ((((r2_h V c i - r2_mean V c (ix2 (0 : Fin 1) (i 1)))
              * Ideal.rsqrt (r2_var V c (ix2 (0 : Fin 1) (i 1)) + Ideal.ofBits .f32 0x3727C5AC#32))
            * r2_gamma V c (ix2 (0 : Fin 1) (i 1)))
          + r2_beta V c (ix2 (0 : Fin 1) (i 1))) 0 :=
  congrFun (r2_final V c) i

end Cert.Bridge

end
-- ==== Proof.Region3.lean ====
/-
  The second linear layer's pallas_call: as the first, with a 128×64 weight matrix.  Grid point t writes rows
  10000·t … 10000·t + 9999 of  h · W₂ ; the ten blocks tile the result.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Bridge

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The region's operand arrays as it finds them, and its result array after the last grid point. -/
abbrev r3_x (c : Dev nD) : FVec Ideal S100000x128 .f32 := V c main_v52
abbrev r3_w (c : Dev nD) : FVec Ideal S128x64 .f32 := V c main_arg6
abbrev r3_out (c : Dev nD) : FVec Ideal S100000x64 .f32 := (dat3 (F := Ideal) V c).arrAt 2 cfg3.N

/-! ## The block product at an entry -/

/-- A whole-buffer access starts at offset zero on both axes. -/
theorem r3_hz : (![0, 0] : Fin 2 → Nat) = fun _ => 0 :=
  funext fun a => match a with | ⟨0, _⟩ => rfl | ⟨1, _⟩ => rfl

/-- The block product's operand entries: the left operand at (row of the result entry, k), the right at (k, column). -/
theorem r3_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem r3_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem r3_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem r3_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
abbrev r3_lidx (y : S10000x64.Idx) (k : Fin 128) : S10000x128.Idx := fun a => match a with
  | ⟨0, _⟩ => ⟨(y 0).val, (y 0).isLt⟩
  | ⟨1, _⟩ => ⟨k.val, k.isLt⟩
abbrev r3_ridx (y : S10000x64.Idx) (k : Fin 128) : S128x64.Idx := fun a => match a with
  | ⟨0, _⟩ => ⟨k.val, k.isLt⟩
  | ⟨1, _⟩ => ⟨(y 1).val, (y 1).isLt⟩

/-- What the body stores, entry by entry: the reshape to the same shape and the casts are the identity and the product
    accumulates into zero, so the entry (r, j) of the block is Σ_k h[r,k] · W₂[k,j]. -/
theorem r3_pay_apply (x0 : FVec Ideal S10000x128 .f32) (x1 : FVec Ideal S128x64 .f32) (y : S10000x64.Idx) :
    k3_pay1 (F := Ideal) x0 x1 y = ∑ k : Fin 128, x0 (r3_lidx y k) * x1 (r3_ridx y k) := by
  unfold k3_pay1
  refine (Ideal.matmul_constant_zero_apply dot_S10000x128_S128x64_S10000x64_1_0_0_1_n_n none _ _ y).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = r3_lidx y k := funext fun a => Fin.ext (by
    match a with
    | ⟨0, _⟩ => exact r3_lhs_0 _ _
    | ⟨1, _⟩ => exact (r3_lhs_1 _ _).trans hk)
  have er : dot_S10000x128_S128x64_S10000x64_1_0_0_1_n_n.rhsIdx y ((ValueIdx.contrEquiv1 dot_S10000x128_S128x64_S10000x64_1_0_0_1_n_n 128 rfl rfl).symm k) = r3_ridx y k := funext fun a => Fin.ext (by
    match a with
    | ⟨0, _⟩ => exact (r3_rhs_0 _ _).trans hk
    | ⟨1, _⟩ => exact r3_rhs_1 _ _)
  show (shapeCast S10000x128 x0 shapeCasts_S10000x128_S10000x128) _ * x1 _ = _
  rw [shapeCast_self, el, er]

/-- The host's product of a 100000×128 array by the 128×64 weights, entry by entry. -/
theorem r3_host_apply (x : FVec Ideal S100000x128 .f32) (w : FVec Ideal S128x64 .f32) (i : S100000x64.Idx) :
    Host.dotGeneral (F := Ideal) Cert.ReferenceIdeal.dot_S100000x128_S128x64_S100000x64_1_0_0_1_n_n none x w i
      = ∑ k : Fin 128, x (Cert.ReferenceIdeal.ReadP.lidx_main_v73 i k) * w (Cert.ReferenceIdeal.ReadP.ridx_main_v73 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.ReadP.lidx_main_v73 i k := funext fun a => Fin.ext (by
    match a with
    | ⟨0, _⟩ => exact Cert.ReferenceIdeal.ReadP.lhs_main_v73_0 _ _
    | ⟨1, _⟩ => exact (Cert.ReferenceIdeal.ReadP.lhs_main_v73_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.ReadP.ridx_main_v73 i k := funext fun a => Fin.ext (by
    match a with
    | ⟨0, _⟩ => exact (Cert.ReferenceIdeal.ReadP.rhs_main_v73_0 _ _).trans hk
    | ⟨1, _⟩ => exact Cert.ReferenceIdeal.ReadP.rhs_main_v73_1 _ _)
  rw [el, er]

/-! ## The windows' blocks as rows of the arrays -/

/-- The printed index maps over the grid: the row-blocked windows are at block (t, 0), the weights at block (0, 0). -/
theorem r3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (r, k) of h's block at point t is h[10000·t + r, k]. -/
theorem r3_xblk_apply (c : Dev nD) (t : Fin cfg3.N) (x : S10000x128.Idx) (k : S100000x128.Idx)
    (hk0 : (k 0).val = 10000 * t.val + (x 0).val) (hk1 : (k 1).val = (x 1).val) :
    (iblk3 (F := Ideal) V c 0 t : Vec Ideal S10000x128 .f32) x = (V c main_v52 : S100000x128.Idx → Elt Ideal .f32) k := by
  obtain ⟨e0, e1, -, -, -, -⟩ := r3_idx_facts t
  unfold iblk3
  rw [View.read_apply]
  show V c main_v52 _ = V c main_v52 _
  congr 1
  funext a
  apply Fin.ext
  match a with
  | ⟨0, _⟩ => show win3_0.index t 0 * 10000 + 1 * (x 0).val = (k 0).val; rw [e0, hk0]; omega
  | ⟨1, _⟩ => show win3_0.index t 1 * 128 + 1 * (x 1).val = (k 1).val; rw [e1, hk1]; omega

/-- The weights' block at every point is the whole weight matrix. -/
theorem r3_wblk_apply (c : Dev nD) (t : Fin cfg3.N) (x : S128x64.Idx) (k : S128x64.Idx)
    (hk0 : (k 0).val = (x 0).val) (hk1 : (k 1).val = (x 1).val) :
    (iblk3 (F := Ideal) V c 1 t : Vec Ideal S128x64 .f32) x = (V c main_arg6 : S128x64.Idx → Elt Ideal .f32) k := by
  obtain ⟨-, -, e0, e1, -, -⟩ := r3_idx_facts t
  unfold iblk3
  rw [View.read_apply]
  show V c main_arg6 _ = V c main_arg6 _
  congr 1
  funext a
  apply Fin.ext
  match a with
  | ⟨0, _⟩ => show win3_1.index t 0 * 128 + 1 * (x 0).val = (k 0).val; rw [e0, hk0]; omega
  | ⟨1, _⟩ => show win3_1.index t 1 * 64 + 1 * (x 1).val = (k 1).val; rw [e1, hk1]; omega

/-! ## What a point writes back, the cover, the array -/

/-- The product of the two operand arrays as the region finds them. -/
abbrev r3_G (c : Dev nD) : FVec Ideal S100000x64 .f32 :=
  Host.dotGeneral (F := Ideal) Cert.ReferenceIdeal.dot_S100000x128_S128x64_S100000x64_1_0_0_1_n_n none (r3_x V c) (r3_w V c)

/-- Point t writes back rows 10000·t … 10000·t + 9999 of the product: both are Σ_k h[10000·t + r, k] · W₂[k, j]. -/
theorem r3_flushed_eq (c : Dev nD) (t : Fin cfg3.N) :
    (dat3 (F := Ideal) V c).flushed 2 t = ((cfg3.win 2).blk t).view.read (Elt Ideal) (r3_G V c) := by
  show (cfg3.win 2).cut (grid3.coords t) ((dat3 (F := Ideal) V c).after 2 t) = _
  rw [after3_2]
  unfold out3_2
  rw [View.canon_unit_zero r3_hz]
  simp only [View.ld_unit_zero (S := S10000x128) r3_hz, View.ld_unit_zero (S := S128x64) r3_hz]
  funext j
  show k3_pay1 (F := Ideal) (iblk3 V c 0 t) (iblk3 V c 1 t) j = r3_G V c (((cfg3.win 2).blk t).view.emb j)
  obtain ⟨-, -, -, -, e0, e1⟩ := r3_idx_facts t
  refine (r3_pay_apply (iblk3 V c 0 t) (iblk3 V c 1 t) j).trans ?_
  refine Eq.trans ?_ (r3_host_apply (V c main_v52) (V c main_arg6) (((cfg3.win 2).blk t).view.emb j)).symm
  refine Finset.sum_congr rfl fun k _ => ?_
  congr 1
  · refine r3_xblk_apply V c t (r3_lidx j k) _ ?_ rfl
    show win3_2.index t (0 : Fin 2) * 10000 + 1 * (j 0).val = 10000 * t.val + (j 0).val
    rw [e0]; omega
  · refine r3_wblk_apply V c t (r3_ridx j k) _ rfl ?_
    show win3_2.index t (1 : Fin 2) * 64 + 1 * (j 1).val = (j 1).val
    rw [e1]; omega

/-- An index of the result array is in point t's block iff each coordinate is in the block's range on its axis. -/
theorem r3_mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v53).slice (win3_2.rect t)).set ↔ _
  rw [View.set_slice_whole, Rect.mem_set_unit]
  exact Iff.rfl

/-- Row i of the result lies in the block of point i / 10000. -/
theorem r3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, e0, e1⟩ := r3_idx_facts t
  have ht : t.val = (i 0).val / 10000 := rfl
  refine ⟨t, flush3_2 t, ?_⟩
  rw [r3_mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the result array is the matrix product of the two operand arrays as the region found them. -/
theorem region3_array (c : Dev nD) :
    r3_out V c = Host.dotGeneral (F := Ideal) Cert.ReferenceIdeal.dot_S100000x128_S128x64_S100000x64_1_0_0_1_n_n none
      (r3_x V c) (r3_w V c) :=
  (dat3 (F := Ideal) V c).arrAt_eq_of_cover 2 (r3_G V c) (fun t _ => r3_flushed_eq V c t) r3_cover

end Cert.Bridge

end
-- ==== Proof.FoldC.lean ====
/-
  Mean and variance, the apply pallas_call and the second linear pallas_call.  The kernel's mean is the reference's;
  its variance, the mean of squares less the squared mean, is the reference's mean of squared deviations because the
  biased aggregate is real (Variance, Finite); the apply kernel then computes the reference's normalisation and
  rectifier entry by entry, and the last pallas_call the reference's second product.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402435_j14594298872380_1_alg».proof.Proof.Walk
import proofs.«402435_j14594298872380_1_alg».proof.Proof.FoldB
import proofs.«402435_j14594298872380_1_alg».proof.Proof.Variance
import proofs.«402435_j14594298872380_1_alg».proof.Proof.Finite
import proofs.«402435_j14594298872380_1_alg».proof.Proof.Region2
import proofs.«402435_j14594298872380_1_alg».proof.Proof.Region3

noncomputable section

namespace Cert.Bridge

open Idealize.ShloMosaic Idealize.ShloMosaic.TcCoe Idealize.SL.Sem
open Idealize.ShloMosaic.Pipeline (Dat)
open Cert.KernelIdeal Cert.KernelIdeal.Gen

open ValueIdx
open Cert.ReferenceIdeal.ReadP (val_main_v3 val_main_v6 val_main_v29 val_main_v30 val_main_v43 val_main_v46 val_main_v49 val_main_v56 val_main_v72 val_main_v73 val_main_v89)
variable (m : (ℓ : Loc nD τ sig) → Buf (Elt Ideal) ℓ) (ρ : Dev nD → PrngReg)

namespace FoldC

/-! ### The reference's mean and variance, entry by entry -/

section Reference

open Cert.ReferenceIdeal.ReadP

variable (a0 : FVec Ideal S100000x128 .f32) (a1 : IVec S2x1600000 32) (a2 : FVec Ideal S128x128 .f32)
  (a3 : FVec Ideal S128 .f32)

/-- The reference's two column reductions run over row `k` of column `b`. -/
theorem idx47_eq (b : Fin 128) (k : Fin 100000) : idx_main_v47 (ix1 b) k = ix2 k b := by
  funext a; match a with | ⟨0, _⟩ => rfl | ⟨1, _⟩ => rfl
theorem idx54_eq (b : Fin 128) (k : Fin 100000) : idx_main_v54 (ix1 b) k = ix2 k b := by
  funext a; match a with | ⟨0, _⟩ => rfl | ⟨1, _⟩ => rfl

/-- The reference's mean at column `b`: the column's sum (from the initial value 0) over the row count. -/
theorem ref_mean (b : Fin 128) :
    val_main_v49 (F := Ideal) a0 a1 a2 a3 (ix1 b)
      = Ideal.div (∑ r : Fin 100000, val_main_v46 (F := Ideal) a0 a1 a2 a3 (ix2 r b)) nRows := by
  rw [val_main_v49_apply, val_main_v47_apply, val_main_v48_apply, val_main_cst_9_apply, val_main_cst_10_apply]
  simp only [Ideal.hostDivf_def, Ideal.ofBits_def, Ideal.ofBits_zero_f32, zero_add, idx47_eq]

/-- The two broadcasts that carry the mean down the rows read column `b`'s entry. -/
theorem idx51_eq (k : Fin 100000) (b : Fin 128) : idx_main_v51 (ix2 k b) = ix2 (0 : Fin 1) b := by
  funext a; match a with | ⟨0, _⟩ => rfl | ⟨1, _⟩ => rfl
theorem idx50_eq (u : Fin 1) (b : Fin 128) : idx_main_v50 (ix2 u b) = ix1 b := by
  funext a; match a with | ⟨0, _⟩ => rfl

/-- The reference's variance at column `b`: the mean of the squared deviations from the column's mean. -/
theorem ref_var (b : Fin 128) :
    val_main_v56 (F := Ideal) a0 a1 a2 a3 (ix1 b)
      = Ideal.div (∑ r : Fin 100000,
          (val_main_v46 (F := Ideal) a0 a1 a2 a3 (ix2 r b)
              - Ideal.div (∑ r : Fin 100000, val_main_v46 (F := Ideal) a0 a1 a2 a3 (ix2 r b)) nRows)
            * (val_main_v46 (F := Ideal) a0 a1 a2 a3 (ix2 r b)
              - Ideal.div (∑ r : Fin 100000, val_main_v46 (F := Ideal) a0 a1 a2 a3 (ix2 r b)) nRows)) nRows := by
  rw [val_main_v56_apply, val_main_v54_apply, val_main_v55_apply, val_main_cst_11_apply, val_main_cst_12_apply]
  simp only [Ideal.hostDivf_def, Ideal.ofBits_def, Ideal.ofBits_zero_f32, zero_add, idx54_eq]
  refine congrArg (Ideal.div · nRows) (Finset.sum_congr rfl fun r _ => ?_)
  rw [val_main_v53_apply, val_main_v52_apply, val_main_v51_apply, val_main_v50_apply, idx51_eq, idx50_eq, ref_mean]
  rfl

/-- A 128-vector broadcast to one row and then down the rows reads, at `i`, its entry at `i`'s column: the four
    such pairs of the normalisation (mean, reciprocal deviation, scale, shift). -/
theorem idx5758 (i : S100000x128.Idx) : idx_main_v57 (idx_main_v58 i) = ix1 (n := 128) (i 1) := by
  funext a; match a with | ⟨0, _⟩ => rfl
theorem idx6364 (i : S100000x128.Idx) : idx_main_v63 (idx_main_v64 i) = ix1 (n := 128) (i 1) := by
  funext a; match a with | ⟨0, _⟩ => rfl
theorem idx6667 (i : S100000x128.Idx) : idx_main_v66 (idx_main_v67 i) = ix1 (n := 128) (i 1) := by
  funext a; match a with | ⟨0, _⟩ => rfl
theorem idx6970 (i : S100000x128.Idx) : idx_main_v69 (idx_main_v70 i) = ix1 (n := 128) (i 1) := by
  funext a; match a with | ⟨0, _⟩ => rfl

/-- The reference's rectified normalisation at `i`: the entry less its column's mean, times the reciprocal root
    of the column's variance plus ε, times the scale, plus the shift, and 0 where that is negative. -/
theorem ref_act (a4 a5 : FVec Ideal S128 .f32) (i : S100000x128.Idx) :
    val_main_v72 (F := Ideal) a0 a1 a2 a3 a4 a5 i
      = max ((((val_main_v46 (F := Ideal) a0 a1 a2 a3 i - val_main_v49 (F := Ideal) a0 a1 a2 a3 (ix1 (n := 128) (i 1)))
              * Ideal.rsqrt (val_main_v56 (F := Ideal) a0 a1 a2 a3 (ix1 (n := 128) (i 1)) + Ideal.ofBits .f32 0x3727C5AC#32))
            * a4 (ix1 (n := 128) (i 1)))
          + a5 (ix1 (n := 128) (i 1))) 0 := by
  rw [val_main_v72_apply, val_main_v71_apply, val_main_v68_apply, val_main_v65_apply, val_main_v59_apply,
    val_main_v58_apply, val_main_v57_apply, idx5758,
    val_main_v64_apply, val_main_v63_apply, idx6364, val_main_v62_apply, val_main_v61_apply, val_main_v60_apply,
    val_main_cst_13_apply,
    val_main_v67_apply, val_main_v66_apply, idx6667,
    val_main_v70_apply, val_main_v69_apply, idx6970,
    val_main_call1_v0_apply, val_main_call1_cst_apply]
  simp only [Ideal.maximumf_def, Ideal.addf_def, Ideal.mulf_def, Ideal.subf_def, Ideal.hostUnary_rsqrt_def,
    Ideal.ofBits_def, Ideal.ofBits_zero_f32]

end Reference

/-! ### The kernel program's mean and variance rows -/

/-- The divisor vector: the row count 100000.0 at each of the 128 entries. -/
abbrev kN : FVec Ideal S128 .f32 :=
  broadcastInDim S128 ![] bcast_S_S128 (constant (F := Ideal) S_ .f32 0x47C35000#32)
/-- A one-row array of column sums, as a vector, over the divisor. -/
abbrev kMean (X : FVec Ideal S1x128 .f32) : FVec Ideal S128 .f32 :=
  Host.divf (shapeCast S128 X shapeCasts_S1x128_S128) kN

/-- Entry `b` of it is the row's entry `b` over the row count. -/
theorem kMean_apply (X : FVec Ideal S1x128 .f32) (b : Fin 128) :
    kMean X (ix1 b) = Ideal.div (X (ix2 (0 : Fin 1) b)) nRows := by
  show Ideal.div (shapeCast S128 X shapeCasts_S1x128_S128 (ix1 b)) (kN (ix1 b)) = _
  rw [shapeCast_1a_a_apply]
  exact congrArg (Ideal.div _) (broadcastInDim_apply _ bcast_S_S128 _ (ix1 b) (fun a => a.elim0) (fun a => a.elim0))

end FoldC

open FoldC

/-- At the apply kernel's entry: the mean row is the reference's mean. -/
theorem W8_mean (c : Dev nD) (hs : SrcInRange m c) (j : S1x128.Idx) :
    (W8 m ρ c (Proc.devRef .tc main_v48) : FVec Ideal S1x128 .f32) j
      = val_main_v49 (F := Ideal) (x0 m c) (x1 m c) (x2 m c) (x3 m c) (ix1 (j 1)) := by
  have e : (W8 m ρ c (Proc.devRef .tc main_v48) : FVec Ideal S1x128 .f32)
      = shapeCast S1x128 (kMean (W7 m ρ c (Proc.devRef .tc main_v39_1))) shapeCasts_S128_S1x128 := by
    dsimp only [W8, hostOps2]
    after_results
    rfl
  obtain ⟨a, b, rfl⟩ : ∃ a b, j = ix2 a b := ⟨j 0, j 1, eq_ix2 j⟩
  show (W8 m ρ c (Proc.devRef .tc main_v48) : FVec Ideal S1x128 .f32) (ix2 a b)
    = val_main_v49 (F := Ideal) (x0 m c) (x1 m c) (x2 m c) (x3 m c) (ix1 b)
  rw [e, shapeCast_a_1a_apply, kMean_apply, ref_mean]
  exact congrArg (Ideal.div · nRows) (W7_sum m ρ c hs (ix2 (0 : Fin 1) b))
/-- … the variance row is the reference's variance (real inputs). -/
theorem W8_var (c : Dev nD) (hs : SrcInRange m c) (h0 : IsReal (x0 m c)) (h2 : IsReal (x2 m c)) (h3 : IsReal (x3 m c)) (j : S1x128.Idx) :
    (W8 m ρ c (Proc.devRef .tc main_v49) : FVec Ideal S1x128 .f32) j
      = val_main_v56 (F := Ideal) (x0 m c) (x1 m c) (x2 m c) (x3 m c) (ix1 (j 1)) := by
  have e : (W8 m ρ c (Proc.devRef .tc main_v49) : FVec Ideal S1x128 .f32)
      = shapeCast S1x128 (subf (kMean (W7 m ρ c (Proc.devRef .tc main_v39_2)))
          (mulf (kMean (W7 m ρ c (Proc.devRef .tc main_v39_1))) (kMean (W7 m ρ c (Proc.devRef .tc main_v39_1)))))
        shapeCasts_S128_S1x128 := by
    dsimp only [W8, hostOps2]
    after_results
    rfl
  obtain ⟨a, b, rfl⟩ : ∃ a b, j = ix2 a b := ⟨j 0, j 1, eq_ix2 j⟩
  show (W8 m ρ c (Proc.devRef .tc main_v49) : FVec Ideal S1x128 .f32) (ix2 a b)
    = val_main_v56 (F := Ideal) (x0 m c) (x1 m c) (x2 m c) (x3 m c) (ix1 b)
  have hS : (W7 m ρ c (Proc.devRef .tc main_v39_1) : FVec Ideal S1x128 .f32) (ix2 (0 : Fin 1) b)
      = ∑ r : Fin 100000, val_main_v46 (F := Ideal) (x0 m c) (x1 m c) (x2 m c) (x3 m c) (ix2 r b) :=
    W7_sum m ρ c hs (ix2 (0 : Fin 1) b)
  have hQ : (W7 m ρ c (Proc.devRef .tc main_v39_2) : FVec Ideal S1x128 .f32) (ix2 (0 : Fin 1) b)
      = ∑ r : Fin 100000, val_main_v46 (F := Ideal) (x0 m c) (x1 m c) (x2 m c) (x3 m c) (ix2 r b)
          * val_main_v46 (F := Ideal) (x0 m c) (x1 m c) (x2 m c) (x3 m c) (ix2 r b) :=
    W7_sumsq m ρ c hs (ix2 (0 : Fin 1) b)
  rw [e, shapeCast_a_1a_apply, subf_apply, mulf_apply, kMean_apply, kMean_apply, ref_var, hQ, hS]
  exact var_identity (fun r => val_main_v46 (F := Ideal) (x0 m c) (x1 m c) (x2 m c) (x3 m c) (ix2 r b))
    (fun r => hpre_real _ _ _ _ h0 h2 h3 (ix2 r b))
/-- … the scale and shift rows are γ and β. -/
theorem W8_gamma (c : Dev nD) (j : S1x128.Idx) :
    (W8 m ρ c (Proc.devRef .tc main_v50) : FVec Ideal S1x128 .f32) j = x4 m c (ix1 (j 1)) := by
  have e : (W8 m ρ c (Proc.devRef .tc main_v50) : FVec Ideal S1x128 .f32)
      = shapeCast S1x128 (W7 m ρ c (Proc.devRef .tc main_arg4) : FVec Ideal S128 .f32) shapeCasts_S128_S1x128 := by
    dsimp only [W8, hostOps2]
    after_results
    rfl
  obtain ⟨a, b, rfl⟩ : ∃ a b, j = ix2 a b := ⟨j 0, j 1, eq_ix2 j⟩
  rw [e, W7_arg4, shapeCast_a_1a_apply]
theorem W8_beta (c : Dev nD) (j : S1x128.Idx) :
    (W8 m ρ c (Proc.devRef .tc main_v51) : FVec Ideal S1x128 .f32) j = x5 m c (ix1 (j 1)) := by
  have e : (W8 m ρ c (Proc.devRef .tc main_v51) : FVec Ideal S1x128 .f32)
      = shapeCast S1x128 (W7 m ρ c (Proc.devRef .tc main_arg5) : FVec Ideal S128 .f32) shapeCasts_S128_S1x128 := by
    dsimp only [W8, hostOps2]
    after_results
    rfl
  obtain ⟨a, b, rfl⟩ : ∃ a b, j = ix2 a b := ⟨j 0, j 1, eq_ix2 j⟩
  rw [e, W7_arg5, shapeCast_a_1a_apply]
/-- After the apply kernel its result array is the reference's rectified normalisation. -/
theorem W9_act (c : Dev nD) (hs : SrcInRange m c) (h0 : IsReal (x0 m c)) (h2 : IsReal (x2 m c)) (h3 : IsReal (x3 m c)) :
    W9 m ρ c (Proc.devRef .tc main_v52)
      = val_main_v72 (F := Ideal) (x0 m c) (x1 m c) (x2 m c) (x3 m c) (x4 m c) (x5 m c) := by
  refine (W9_arr m ρ c 5).trans (funext fun i => ?_)
  refine (region2_array (V8 m ρ) c i).trans ?_
  have hh : (W8 m ρ c (Proc.devRef .tc main_v39_0) : FVec Ideal S100000x128 .f32)
      = val_main_v46 (F := Ideal) (x0 m c) (x1 m c) (x2 m c) (x3 m c) :=
    (W8_hpre m ρ c).trans (W7_hpre m ρ c hs)
  have hm : (W8 m ρ c (Proc.devRef .tc main_v48) : FVec Ideal S1x128 .f32) (ix2 (0 : Fin 1) (i 1))
      = val_main_v49 (F := Ideal) (x0 m c) (x1 m c) (x2 m c) (x3 m c) (ix1 (n := 128) (i 1)) :=
    W8_mean m ρ c hs (ix2 (0 : Fin 1) (i 1))
  have hv : (W8 m ρ c (Proc.devRef .tc main_v49) : FVec Ideal S1x128 .f32) (ix2 (0 : Fin 1) (i 1))
      = val_main_v56 (F := Ideal) (x0 m c) (x1 m c) (x2 m c) (x3 m c) (ix1 (n := 128) (i 1)) :=
    W8_var m ρ c hs h0 h2 h3 (ix2 (0 : Fin 1) (i 1))
  have hg : (W8 m ρ c (Proc.devRef .tc main_v50) : FVec Ideal S1x128 .f32) (ix2 (0 : Fin 1) (i 1))
      = x4 m c (ix1 (n := 128) (i 1)) :=
    W8_gamma m ρ c (ix2 (0 : Fin 1) (i 1))
  have hb : (W8 m ρ c (Proc.devRef .tc main_v51) : FVec Ideal S1x128 .f32) (ix2 (0 : Fin 1) (i 1))
      = x5 m c (ix1 (n := 128) (i 1)) :=
    W8_beta m ρ c (ix2 (0 : Fin 1) (i 1))
  dsimp only [r2_h, r2_mean, r2_var, r2_gamma, r2_beta, V8]
  rw [hh, hm, hv, hg, hb, ref_act]
/-- After the last pallas_call its result array is the reference's second product. -/
theorem W10_lin2 (c : Dev nD) (hs : SrcInRange m c) (h0 : IsReal (x0 m c)) (h2 : IsReal (x2 m c)) (h3 : IsReal (x3 m c)) :
    W10 m ρ c (Proc.devRef .tc main_v53)
      = val_main_v73 (F := Ideal) (x0 m c) (x1 m c) (x2 m c) (x3 m c) (x4 m c) (x5 m c) (x6 m c) := by
  refine (W10_arr m ρ c 2).trans ?_
  refine (region3_array (V9 m ρ) c).trans ?_
  dsimp only [r3_x, r3_w, V9]
  rw [W9_act m ρ c hs h0 h2 h3, W9_arg6]
  rfl

end Cert.Bridge

end
-- ==== Proof.FoldD.lean ====
/-
  The second aggregation and the output bias: the kernel program's result is the reference's result.
-/
import proofs.«402435_j14594298872380_1_alg».proof.Proof.Gen.KernelIdeal.Frame
import proofs.«402435_j14594298872380_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402435_j14594298872380_1_alg».proof.Proof.Walk
import proofs.«402435_j14594298872380_1_alg».proof.Proof.FoldC
import proofs.«402435_j14594298872380_1_alg».proof.Proof.TakeGather

noncomputable section

namespace Cert.Bridge

open Idealize.ShloMosaic Idealize.ShloMosaic.TcCoe Idealize.SL.Sem
open Idealize.ShloMosaic.Pipeline (Dat)
open Cert.KernelIdeal Cert.KernelIdeal.Gen

open Cert.ReferenceIdeal.ReadP (val_main_v3 val_main_v6 val_main_v29 val_main_v30 val_main_v43 val_main_v46 val_main_v49 val_main_v56 val_main_v72 val_main_v73 val_main_v89)
variable (m : (ℓ : Loc nD τ sig) → Buf (Elt Ideal) ℓ) (ρ : Dev nD → PrngReg)

open Cert.ReferenceIdeal.ReadP (val_main_v0 val_main_v1 val_main_v2 val_main_c_14 val_main_v74 val_main_v75 val_main_c_15 val_main_v76 val_main_v77 val_main_v78 val_main_v79 val_main_v80 val_main_v81 val_main_v82 val_main_v83 val_main_cst_16 val_main_v84 val_main_v85 val_main_v86 val_main_v87 val_main_v88)

/-- Contents moved to a buffer's own type and back are unchanged. -/
private theorem foldD_ofBuf_toBuf {T : BufTy} (x : StableHlo.TRef sig T) (v : T.Contents (Elt Ideal)) :
    x.ofBuf (x.toBuf v) = v := by
  obtain ⟨r, e, h1, h2⟩ := x
  subst e
  rfl

/-- At the three buffers the take reads and writes, the move to the buffer's own type is the identity. -/
private theorem foldD_ofBuf_v3 (p1 p2 p3) (v : IVec S1700000 32) :
    (StableHlo.TRef.of (sig := sig) (T := ⟨S1700000, .i32⟩) main_v3 p1 p2 p3).ofBuf (Val := Elt Ideal) v = v := rfl
private theorem foldD_ofBuf_v53 (p1 p2 p3) (v : FVec Ideal S100000x64 .f32) :
    (StableHlo.TRef.of (sig := sig) (T := ⟨S100000x64, .f32⟩) main_v53 p1 p2 p3).ofBuf (Val := Elt Ideal) v = v := rfl
private theorem foldD_toBuf_v54 (p1 p2 p3) (v : FVec Ideal S1700000x64 .f32) :
    (StableHlo.TRef.of (sig := sig) (T := ⟨S1700000x64, .f32⟩) main_v54 p1 p2 p3).toBuf (Val := Elt Ideal) v = v := rfl

/-- After the second take its result array is the take of the second product's rows at the source ids. -/
private theorem foldD_W11_take (c : Dev nD) :
    W11 m ρ c (Proc.devRef .tc main_v54)
      = take64 (W10 m ρ c (Proc.devRef .tc main_v53)) (W10 m ρ c (Proc.devRef .tc main_v3)) := by
  dsimp only [W11]
  generalize W10 m ρ c = V
  after_results_simp
  simp only [foldD_ofBuf_toBuf]
  simp only [foldD_ofBuf_v3, foldD_ofBuf_v53, foldD_toBuf_v54]
  unfold take64
  rfl

/-- The last stretch's result array, over the contents at its entry. -/
private theorem foldD_W12_out (c : Dev nD) :
    W12 m ρ c (Proc.devRef .tc main_v63)
      = addf (Host.scatterAdd scatter_S100000x64_S1700000x1_S1700000x64_1_0_0_1
                (broadcastInDim S100000x64 ![] bcast_S_S100000x64 (constant (F := Ideal) S_ .f32 0x00000000#32))
                (broadcastInDim S1700000x1 ![0] bcast_S1700000_S1700000x1_0 (W11 m ρ c (Proc.devRef .tc main_v6) : IVec S1700000 32))
                (mulf (W11 m ρ c (Proc.devRef .tc main_v54) : FVec Ideal S1700000x64 .f32)
                  (broadcastInDim S1700000x64 ![0, 1] bcast_S1700000x1_S1700000x64_0_1
                    (broadcastInDim S1700000x1 ![0] bcast_S1700000_S1700000x1_0 (W11 m ρ c (Proc.devRef .tc main_v29) : FVec Ideal S1700000 .f32)))))
          (broadcastInDim S100000x64 ![0, 1] bcast_S1x64_S100000x64_0_1
            (broadcastInDim S1x64 ![1] bcast_S64_S1x64_1 (W11 m ρ c (Proc.devRef .tc main_arg7) : FVec Ideal S64 .f32))) := by
  dsimp only [W12]
  generalize W11 m ρ c = V
  after_results_simp

/-- The reference's source ids are the edges' sources followed by one self-loop per node. -/
private theorem foldD_ref_src (a1 : IVec S2x1600000 32) : val_main_v3 (F := Ideal) a1 = allSrc (srcIds a1) := by
  unfold val_main_v3 val_main_v2 val_main_v1 val_main_v0
  rfl

attribute [local irreducible] Host.scatterAdd Host.gather broadcastInDim addf mulf select in
/-- The reference's result, as the second aggregation of the second product's taken rows, plus the bias. -/
private theorem foldD_ref_out (a0 : FVec Ideal S100000x128 .f32) (a1 : IVec S2x1600000 32) (a2 : FVec Ideal S128x128 .f32)
    (a3 a4 a5 : FVec Ideal S128 .f32) (a6 : FVec Ideal S128x64 .f32) (a7 : FVec Ideal S64 .f32) :
    val_main_v89 (F := Ideal) a0 a1 a2 a3 a4 a5 a6 a7
      = addf (Host.scatterAdd scatter_S100000x64_S1700000x1_S1700000x64_1_0_0_1
                (broadcastInDim S100000x64 ![] bcast_S_S100000x64 (constant (F := Ideal) S_ .f32 0x00000000#32))
                (broadcastInDim S1700000x1 ![0] bcast_S1700000_S1700000x1_0 (val_main_v6 (F := Ideal) a1))
                (mulf (Host.gather gather_S100000x64_S1700000x1_S1700000x64_1_0_n_n_0_1_164
                        (val_main_v73 (F := Ideal) a0 a1 a2 a3 a4 a5 a6) (idCol (val_main_v3 (F := Ideal) a1)))
                  (broadcastInDim S1700000x64 ![0, 1] bcast_S1700000x1_S1700000x64_0_1
                    (broadcastInDim S1700000x1 ![0] bcast_S1700000_S1700000x1_0 (val_main_v29 (F := Ideal) a1)))))
          (broadcastInDim S100000x64 ![0, 1] bcast_S1x64_S100000x64_0_1
            (broadcastInDim S1x64 ![1] bcast_S64_S1x64_1 a7)) := by
  unfold val_main_v89 val_main_v88 val_main_v87 val_main_v86 val_main_v85 val_main_v84 val_main_cst_16 val_main_v83
    val_main_v82 val_main_v81 val_main_v80 val_main_v79 val_main_v78 val_main_v77 val_main_v76 val_main_c_15
    val_main_v75 val_main_v74 val_main_c_14
  generalize val_main_v73 (F := Ideal) a0 a1 a2 a3 a4 a5 a6 = t
  generalize val_main_v3 (F := Ideal) a1 = s
  generalize val_main_v6 (F := Ideal) a1 = d
  generalize val_main_v29 (F := Ideal) a1 = w
  rfl

/-- Under the precondition's two consequences the kernel program's result array is the reference's result. -/
theorem kernel_value (c : Dev nD) (hs : SrcInRange m c) (h0 : IsReal (x0 m c)) (h2 : IsReal (x2 m c)) (h3 : IsReal (x3 m c)) :
    W12 m ρ c (Proc.devRef .tc main_v63)
      = val_main_v89 (F := Ideal) (x0 m c) (x1 m c) (x2 m c) (x3 m c) (x4 m c) (x5 m c) (x6 m c) (x7 m c) := by
  have hrow : ∀ k, 0 ≤ (val_main_v3 (F := Ideal) (x1 m c) k).toInt
      ∧ (val_main_v3 (F := Ideal) (x1 m c) k).toInt < 100000 := by
    rw [foldD_ref_src]; exact allSrc_in_range _ hs
  rw [foldD_W12_out, foldD_W11_take, W11_dst, W11_nrm, W11_arg7, W10_src, W3_src, W3_dst, W3_nrm,
    W10_lin2 m ρ c hs h0 h2 h3, take64_eq _ _ hrow]
  exact (foldD_ref_out (x0 m c) (x1 m c) (x2 m c) (x3 m c) (x4 m c) (x5 m c) (x6 m c) (x7 m c)).symm

end Cert.Bridge

end
-- ==== Proof.lean ====
/-
  A two-layer graph convolution with batch normalisation, as four Pallas kernels among host gathers and
  scatter-adds, against its jnp reference, over the extended reals.

  The two programs differ in four places, and agree term for term everywhere else (the degree normalisation, both
  gathers' index arithmetic, both scatter-adds):
    • each linear layer is a pallas_call that multiplies a block of 10000 rows at a time, against one dot_general;
    • the kernel's jnp.take overwrites the rows whose index is out of range by a NaN, the reference's h[row] does not:
      under the precondition's range of the source ids nothing is overwritten;
    • the batch-norm statistics are accumulated block by block as Σh and Σh², and the variance taken as
      Σh²/n − (Σh/n)², against the reference's Σ(h − mean)²/n: equal because h is real when the inputs are;
    • the normalisation and the rectifier are a pointwise pallas_call against the reference's broadcasts.
  So the kernel program's result is the reference's result term of the same arguments (`Bridge.kernel_value`).
-/
import proofs.«402435_j14594298872380_1_alg».proof.Defs
import proofs.«402435_j14594298872380_1_alg».proof.Proof.Gen.Kernel
import proofs.«402435_j14594298872380_1_alg».proof.Proof.Gen.Kernel.Skeleton
import proofs.«402435_j14594298872380_1_alg».proof.Proof.Gen.Kernel.Launch
import proofs.«402435_j14594298872380_1_alg».proof.Proof.Gen.Kernel.Points
import proofs.«402435_j14594298872380_1_alg».proof.Proof.Gen.Kernel.Frame
import proofs.«402435_j14594298872380_1_alg».proof.Proof.Gen.KernelIdeal
import proofs.«402435_j14594298872380_1_alg».proof.Proof.Gen.KernelIdeal.Skeleton
import proofs.«402435_j14594298872380_1_alg».proof.Proof.Gen.KernelIdeal.Launch
import proofs.«402435_j14594298872380_1_alg».proof.Proof.Gen.KernelIdeal.Points
import proofs.«402435_j14594298872380_1_alg».proof.Proof.Gen.KernelIdeal.Frame
import proofs.«402435_j14594298872380_1_alg».proof.Proof.Gen.ReferenceIdeal
import proofs.«402435_j14594298872380_1_alg».proof.Proof.Gen.Pre_finite_inputs
import proofs.«402435_j14594298872380_1_alg».proof.Proof.KRun
import proofs.«402435_j14594298872380_1_alg».proof.Proof.RefReadP
import proofs.«402435_j14594298872380_1_alg».proof.Proof.PreDecode
import proofs.«402435_j14594298872380_1_alg».proof.Proof.FoldD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the reference's term of the (agreeing) arguments. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v63),
    Cert.KernelIdeal.Gen.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, -, -, -, -, hs⟩ := Cert.Bridge.pre_decode _ _ _ _ _ _ _ _ (hpre c)
  rw [Cert.ReferenceIdeal.ReadP.val_main_v89_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.kernel_value m ρ c hs h0 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
